-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S524288 : Shape := ⟨1, ![524288]⟩
abbrev S16384x64 : Shape := ⟨2, ![16384, 64]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S256x64 .f32) (main_arg7 : FVec F S64 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S16384x512 .f32) (main_arg1 : IVec S524288 32) (main_arg2 : IVec S524288 32) (main_arg3 : FVec F S16384x64 .f32) (main_arg4 : FVec F S512x256 .f32) (main_arg5 : FVec F S256 .f32) (main_arg6 : FVec F S256x64 .f32) (main_arg7 : FVec F S64 .f32) (main_arg8 : FVec F S256x64 .f32) (main_arg9 : FVec F S64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x64 .f32 := Host.absf main_arg3
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S16384x512 : Shape := ⟨2, ![16384, 512]⟩
abbrev S524288 : Shape := ⟨1, ![524288]⟩
abbrev S16384x64 : Shape := ⟨2, ![16384, 64]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S2048x512 : Shape := ⟨2, ![2048, 512]⟩
abbrev S2048x1 : Shape := ⟨2, ![2048, 1]⟩
abbrev S2048x256 : Shape := ⟨2, ![2048, 256]⟩
abbrev S524288x256 : Shape := ⟨2, ![524288, 256]⟩
abbrev S1x256 : Shape := ⟨2, ![1, 256]⟩
abbrev S2048x64 : Shape := ⟨2, ![2048, 64]⟩
abbrev S524288x64 : Shape := ⟨2, ![524288, 64]⟩
abbrev S1x64 : Shape := ⟨2, ![1, 64]⟩
abbrev S16384x16384 : Shape := ⟨2, ![16384, 16384]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 98
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S16384x64, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S524288, .f32⟩
  | .hbm, ⟨12, _⟩ => ⟨S_, .f32⟩
  | .hbm, ⟨13, _⟩ => ⟨S16384, .f32⟩
  | .hbm, ⟨14, _⟩ => ⟨S524288x1, .i32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S524288x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1, .f32⟩
  | .hbm, ⟨34, _⟩ => ⟨S16384x256, .f32⟩
  | .hbm, ⟨35, _⟩ => ⟨S_, .i32⟩
  | .hbm, ⟨36, _⟩ => ⟨S524288, .i32⟩
  | .hbm, ⟨37, _⟩ => ⟨S524288, .i1⟩
  | .hbm, ⟨38, _⟩ => ⟨S_, .i32⟩
  | .hbm, ⟨39, _⟩ => ⟨S524288, .i32⟩
  | .hbm, ⟨40, _⟩ => ⟨S524288, .i32⟩
  | .hbm, ⟨41, _⟩ => ⟨S524288, .i32⟩
  | .hbm, ⟨42, _⟩ => ⟨S524288x1, .i32⟩
  | .hbm, ⟨43, _⟩ => ⟨S524288x256, .f32⟩
  | .hbm, ⟨44, _⟩ => ⟨S_, .f32⟩
  | .hbm, ⟨45, _⟩ => ⟨S16384x256, .f32⟩
  | .hbm, ⟨46, _⟩ => ⟨S524288x1, .i32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S16384x64, .f32⟩
  | .hbm, ⟨57, _⟩ => ⟨S_, .i32⟩
  | .hbm, ⟨58, _⟩ => ⟨S524288, .i32⟩
  | .hbm, ⟨59, _⟩ => ⟨S524288, .i1⟩
  | .hbm, ⟨60, _⟩ => ⟨S_, .i32⟩
  | .hbm, ⟨61, _⟩ => ⟨S524288, .i32⟩
  | .hbm, ⟨62, _⟩ => ⟨S524288, .i32⟩
  | .hbm, ⟨63, _⟩ => ⟨S524288, .i32⟩
  | .hbm, ⟨64, _⟩ => ⟨S524288x1, .i32⟩
  | .hbm, ⟨65, _⟩ => ⟨S524288x64, .f32⟩
  | .hbm, ⟨66, _⟩ => ⟨S_, .f32⟩
  | .hbm, ⟨67, _⟩ => ⟨S16384x64, .f32⟩
  | .hbm, ⟨68, _⟩ => ⟨S524288x1, .i32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S1x64, .f32⟩
  | .hbm, ⟨73, _⟩ => ⟨S16384x64, .f32⟩
  | .hbm, ⟨74, _⟩ => ⟨S16384x64, .f32⟩
  | .hbm, ⟨75, _⟩ => ⟨S16384x64, .f32⟩
  | .hbm, ⟨76, _⟩ => ⟨S_, .i32⟩
  | .hbm, ⟨77, _⟩ => ⟨S524288, .i32⟩
  | .hbm, ⟨78, _⟩ => ⟨S524288, .i1⟩
  | .hbm, ⟨79, _⟩ => ⟨S_, .i32⟩
  | .hbm, ⟨80, _⟩ => ⟨S524288, .i32⟩
  | .hbm, ⟨81, _⟩ => ⟨S524288, .i32⟩
  | .hbm, ⟨82, _⟩ => ⟨S524288, .i32⟩
  | .hbm, ⟨83, _⟩ => ⟨S524288x1, .i32⟩
  | .hbm, ⟨84, _⟩ => ⟨S524288x64, .f32⟩
  | .hbm, ⟨85, _⟩ => ⟨S_, .f32⟩
  | .hbm, ⟨86, _⟩ => ⟨S16384x64, .f32⟩
  | .hbm, ⟨87, _⟩ => ⟨S524288x1, .i32⟩
  | .hbm, ⟨88, _⟩ => ⟨S16384x64, .f32⟩
  | .hbm, ⟨89, _⟩ => ⟨S16384x64, .f32⟩
  | .hbm, ⟨90, _⟩ => ⟨S16384x64, .f32⟩
  | .hbm, ⟨91, _⟩ => ⟨S1x64, .f32⟩
  | .hbm, ⟨92, _⟩ => ⟨S16384x64, .f32⟩
  | .hbm, ⟨93, _⟩ => ⟨S16384x64, .f32⟩
  | .hbm, ⟨94, _⟩ => ⟨S16384x64, .f32⟩
  | .hbm, ⟨95, _⟩ => ⟨S16384x64, .f32⟩
  | .hbm, ⟨96, _⟩ => ⟨S16384x64, .f32⟩
  | .hbm, ⟨97, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S512x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S256x64, .f32⟩
  | .local _ .vmem, ⟨12, _⟩ => ⟨S2048x64, .f32⟩
  | .local _ .vmem, ⟨13, _⟩ => ⟨S2048x64, .f32⟩
  | .local _ .vmem, ⟨14, _⟩ => ⟨S2048x256, .f32⟩
  | .local _ .vmem, ⟨15, _⟩ => ⟨S2048x256, .f32⟩
  | .local _ .vmem, ⟨16, _⟩ => ⟨S2048x1, .f32⟩
  | .local _ .vmem, ⟨17, _⟩ => ⟨S2048x1, .f32⟩
  | .local _ .vmem, ⟨18, _⟩ => ⟨S256x64, .f32⟩
  | .local _ .vmem, ⟨19, _⟩ => ⟨S2048x64, .f32⟩
  | .local _ .vmem, ⟨20, _⟩ => ⟨S2048x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x1024, .f32⟩
  | .local _ .vmem, ⟨26, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S2048x256_S2048x256 : S2048x256.ShapeCasts S2048x256
  broadcasts_S2048x1_S2048x256 : S2048x1.Broadcasts S2048x256
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  scatter_S16384_S524288x1_S524288_n_0_0_1_wf : ScatterDims.WF S16384 S524288x1 S524288 [] [0] [0] 1
  dot_S2048x512_S512x256_S2048x256_1_0_0_1_n_n_wf : DotDims.WF S2048x512 S512x256 S2048x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x64_S2048x64_1_0_0_1_n_n_wf : DotDims.WF S2048x256 S256x64 S2048x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .f32 = 32 ∨ (Rect.block (s := S16384x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S16384x1.size a
  hwx2_1 : ∀ i : grid2.Coords, EltTy.bits .f32 = 32 ∨ (Rect.block (s := S16384x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S16384x64.size a
  hwx3_0 : ∀ i : grid3.Coords, EltTy.bits .f32 = 32 ∨ (Rect.block (s := S16384x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S16384x64.size a
  hwx3_1 : ∀ i : grid3.Coords, EltTy.bits .f32 = 32 ∨ (Rect.block (s := S16384x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S16384x16384.size a
  hwx3_2 : ∀ i : grid3.Coords, EltTy.bits .f32 = 32 ∨ (Rect.block (s := S16384x16384) S1024x1024.size (cc3_transform_2 i) (hinb3_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16384x512 : Shape := ⟨2, ![16384, 512]⟩
abbrev S524288 : Shape := ⟨1, ![524288]⟩
abbrev S16384x64 : Shape := ⟨2, ![16384, 64]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x256 : Shape := ⟨2, ![16384, 256]⟩
abbrev S524288x256 : Shape := ⟨2, ![524288, 256]⟩
abbrev S1x256 : Shape := ⟨2, ![1, 256]⟩
abbrev S524288x64 : Shape := ⟨2, ![524288, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 117
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S16384x64, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S524288, .f32⟩
  | .hbm, ⟨12, _⟩ => ⟨S_, .f32⟩
  | .hbm, ⟨13, _⟩ => ⟨S16384, .f32⟩
  | .hbm, ⟨14, _⟩ => ⟨S524288x1, .i32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S524288x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x512, .f32⟩
  | .hbm, ⟨34, _⟩ => ⟨S16384x512, .f32⟩
  | .hbm, ⟨35, _⟩ => ⟨S16384x256, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x256, .f32⟩
  | .hbm, ⟨45, _⟩ => ⟨S_, .f32⟩
  | .hbm, ⟨46, _⟩ => ⟨S16384x256, .f32⟩
  | .hbm, ⟨47, _⟩ => ⟨S524288x1, .i32⟩
  | .hbm, ⟨48, _⟩ => ⟨S16384x256, .f32⟩
  | .hbm, ⟨49, _⟩ => ⟨S16384x1, .f32⟩
  | .hbm, ⟨50, _⟩ => ⟨S16384x256, .f32⟩
  | .hbm, ⟨51, _⟩ => ⟨S16384x256, .f32⟩
  | .hbm, ⟨52, _⟩ => ⟨S1x256, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S16384x1, .f32⟩
  | .hbm, ⟨59, _⟩ => ⟨S16384x256, .f32⟩
  | .hbm, ⟨60, _⟩ => ⟨S16384x256, .f32⟩
  | .hbm, ⟨61, _⟩ => ⟨S16384x64, .f32⟩
  | .hbm, ⟨62, _⟩ => ⟨S_, .i32⟩
  | .hbm, ⟨63, _⟩ => ⟨S524288, .i32⟩
  | .hbm, ⟨64, _⟩ => ⟨S524288, .i1⟩
  | .hbm, ⟨65, _⟩ => ⟨S_, .i32⟩
  | .hbm, ⟨66, _⟩ => ⟨S524288, .i32⟩
  | .hbm, ⟨67, _⟩ => ⟨S524288, .i32⟩
  | .hbm, ⟨68, _⟩ => ⟨S524288, .i32⟩
  | .hbm, ⟨69, _⟩ => ⟨S524288x1, .i32⟩
  | .hbm, ⟨70, _⟩ => ⟨S524288x64, .f32⟩
  | .hbm, ⟨71, _⟩ => ⟨S_, .f32⟩
  | .hbm, ⟨72, _⟩ => ⟨S16384x64, .f32⟩
  | .hbm, ⟨73, _⟩ => ⟨S524288x1, .i32⟩
  | .hbm, ⟨74, _⟩ => ⟨S16384x64, .f32⟩
  | .hbm, ⟨75, _⟩ => ⟨S16384x1, .f32⟩
  | .hbm, ⟨76, _⟩ => ⟨S16384x64, .f32⟩
  | .hbm, ⟨77, _⟩ => ⟨S16384x64, .f32⟩
  | .hbm, ⟨78, _⟩ => ⟨S1x64, .f32⟩
  | .hbm, ⟨79, _⟩ => ⟨S16384x64, .f32⟩
  | .hbm, ⟨80, _⟩ => ⟨S16384x64, .f32⟩
  | .hbm, ⟨81, _⟩ => ⟨S16384x1, .f32⟩
  | .hbm, ⟨82, _⟩ => ⟨S16384x256, .f32⟩
  | .hbm, ⟨83, _⟩ => ⟨S16384x256, .f32⟩
  | .hbm, ⟨84, _⟩ => ⟨S16384x64, .f32⟩
  | .hbm, ⟨85, _⟩ => ⟨S_, .i32⟩
  | .hbm, ⟨86, _⟩ => ⟨S524288, .i32⟩
  | .hbm, ⟨87, _⟩ => ⟨S524288, .i1⟩
  | .hbm, ⟨88, _⟩ => ⟨S_, .i32⟩
  | .hbm, ⟨89, _⟩ => ⟨S524288, .i32⟩
  | .hbm, ⟨90, _⟩ => ⟨S524288, .i32⟩
  | .hbm, ⟨91, _⟩ => ⟨S524288, .i32⟩
  | .hbm, ⟨92, _⟩ => ⟨S524288x1, .i32⟩
  | .hbm, ⟨93, _⟩ => ⟨S524288x64, .f32⟩
  | .hbm, ⟨94, _⟩ => ⟨S_, .f32⟩
  | .hbm, ⟨95, _⟩ => ⟨S16384x64, .f32⟩
  | .hbm, ⟨96, _⟩ => ⟨S524288x1, .i32⟩
  | .hbm, ⟨97, _⟩ => ⟨S16384x64, .f32⟩
  | .hbm, ⟨98, _⟩ => ⟨S16384x1, .f32⟩
  | .hbm, ⟨99, _⟩ => ⟨S16384x64, .f32⟩
  | .hbm, ⟨100, _⟩ => ⟨S16384x64, .f32⟩
  | .hbm, ⟨101, _⟩ => ⟨S1x64, .f32⟩
  | .hbm, ⟨102, _⟩ => ⟨S16384x64, .f32⟩
  | .hbm, ⟨103, _⟩ => ⟨S16384x64, .f32⟩
  | .hbm, ⟨104, _⟩ => ⟨S16384x64, .f32⟩
  | .hbm, ⟨105, _⟩ => ⟨S16384x64, .f32⟩
  | .hbm, ⟨106, _⟩ => ⟨S16384x64, .f32⟩
  | .hbm, ⟨107, _⟩ => ⟨S64x16384, .f32⟩
  | .hbm, ⟨108, _⟩ => ⟨S16384x16384, .f32⟩
  | .hbm, ⟨109, _⟩ => ⟨S16384x16384, .f32⟩
  | .hbm, ⟨110, _⟩ => ⟨S16384x16384, .f32⟩
  | .hbm, ⟨111, _⟩ => ⟨S_, .f32⟩
  | .hbm, ⟨112, _⟩ => ⟨S16384x16384, .f32⟩
  | .hbm, ⟨113, _⟩ => ⟨S16384x16384, .f32⟩
  | .hbm, ⟨114, _⟩ => ⟨S_, .f32⟩
  | .hbm, ⟨115, _⟩ => ⟨S16384x16384, .f32⟩
  | .hbm, ⟨116, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  scatter_S16384_S524288x1_S524288_n_0_0_1_wf : ScatterDims.WF S16384 S524288x1 S524288 [] [0] [0] 1
  dot_S16384x512_S512x256_S16384x256_1_0_0_1_n_n_wf : DotDims.WF S16384x512 S512x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x16384_S16384x16384_1_0_0_1_n_n_wf : DotDims.WF S16384x64 S64x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.Word.Body0.lean ====
/-
  Region 0 of the kernel program: the first projection, rows of the features scaled by the out-degree column and multiplied
  by the weights, one block of 2048 rows per grid point. Stated for any float family and at any contents `V` the region
  may find in the core's buffers: the block each window stages at a point, what the body leaves in the output window's
  staging buffer (its one store of the product), the body's run on whole staging buffers, the pipeline's proof data and
  the body obligation the pipeline's launch asks for at every point.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or the
    block index did not move: for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev rX0 : Rect S2048x512 := Rect.unit (s := S2048x512) ![0, 0] S2048x512.size inb_S2048x512_S2048x512_0_0
abbrev rS0 : Rect S2048x1 := Rect.unit (s := S2048x1) ![0, 0] S2048x1.size inb_S2048x1_S2048x1_0_0
abbrev rW0 : Rect S512x256 := Rect.unit (s := S512x256) ![0, 0] S512x256.size inb_S512x256_S512x256_0_0
abbrev rO0 : Rect S2048x256 := Rect.unit (s := S2048x256) ![0, 0] S2048x256.size inb_S2048x256_S2048x256_0_0

/-! ## What the body leaves in the output window's buffer -/

/-- The output window's staging buffer after the body: its one store, of the scaled rows' product with the weights. -/
def out0_3 (x0 : Vec F S2048x512 .f32) (x1 : Vec F S2048x1 .f32) (x2 : Vec F S512x256 .f32) : Vec F S2048x256 .f32 :=
  View.canon [⟨rO0, k0_pay1 (View.ld x0 rX0) (View.ld x1 rS0) (View.ld x2 rW0)⟩]

/-- The one store fills the buffer. -/
theorem cover0_3 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

/-! ## The body's triple -/

set_option maxHeartbeats 1000000 in
/-- The kernel body on whole staging memrefs, the inputs' at read contents `x0 x1 x2` and the output's at anything, runs to
    the continuation with the inputs' as they were and the output's at `out0_3` of them. -/
theorem sound_kernel0 (c : Dev nD) (E : Set ℕ) (i : grid0.Coords) (arg1 : Memref sig .tc .vmem S2048x512 .f32) (harg1 : arg1.IsWhole) (arg2 : Memref sig .tc .vmem S2048x1 .f32) (harg2 : arg2.IsWhole)
    (arg3 : Memref sig .tc .vmem S512x256 .f32) (harg3 : arg3.IsWhole) (arg4 : Memref sig .tc .vmem S2048x256 .f32) (harg4 : arg4.IsWhole)
    (x0 : Vec F S2048x512 .f32) (x1 : Vec F S2048x1 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.Word.Body1.lean ====
/-
  Region 1 of the kernel program: a projection of the hidden layer, its rows scaled by the out-degree column and multiplied
  by the weights, one block of 2048 rows per grid point. Stated for any float family and at any contents `V` the region
  may find in the core's buffers: the block each window stages at a point, what the body leaves in the output window's
  staging buffer (its one store of the product), the body's run on whole staging buffers, the pipeline's proof data and
  the body obligation the pipeline's launch asks for at every point.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or the
    block index did not move: for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev rX1 : Rect S2048x256 := Rect.unit (s := S2048x256) ![0, 0] S2048x256.size inb_S2048x256_S2048x256_0_0
abbrev rS1 : Rect S2048x1 := Rect.unit (s := S2048x1) ![0, 0] S2048x1.size inb_S2048x1_S2048x1_0_0
abbrev rW1 : Rect S256x64 := Rect.unit (s := S256x64) ![0, 0] S256x64.size inb_S256x64_S256x64_0_0
abbrev rO1 : Rect S2048x64 := Rect.unit (s := S2048x64) ![0, 0] S2048x64.size inb_S2048x64_S2048x64_0_0

/-! ## What the body leaves in the output window's buffer -/

/-- The output window's staging buffer after the body: its one store, of the scaled rows' product with the weights. -/
def out1_3 (x0 : Vec F S2048x256 .f32) (x1 : Vec F S2048x1 .f32) (x2 : Vec F S256x64 .f32) : Vec F S2048x64 .f32 :=
  View.canon [⟨rO1, k1_pay1 (View.ld x0 rX1) (View.ld x1 rS1) (View.ld x2 rW1)⟩]

/-- The one store fills the buffer. -/
theorem cover1_3 (p0 : Vec F S2048x64 .f32) (y : S2048x64.Idx) :
    ∃ pc ∈ ([⟨rO1, p0⟩] : List (View.Piece (Elt F) S2048x64 .f32)), y ∈ pc.1.set :=
  View.cover_of_tiled [⟨rO1, p0⟩] S2048x64.size (by rfl) y

/-! ## The body's triple -/

set_option maxHeartbeats 1000000 in
/-- The kernel body on whole staging memrefs, the inputs' at read contents `x0 x1 x2` and the output's at anything, runs to
    the continuation with the inputs' as they were and the output's at `out1_3` of them. -/
theorem sound_kernel1 (c : Dev nD) (E : Set ℕ) (i : grid1.Coords) (arg1 : Memref sig .tc .vmem S2048x256 .f32) (harg1 : arg1.IsWhole) (arg2 : Memref sig .tc .vmem S2048x1 .f32) (harg2 : arg2.IsWhole)
    (arg3 : Memref sig .tc .vmem S256x64 .f32) (harg3 : arg3.IsWhole) (arg4 : Memref sig .tc .vmem S2048x64 .f32) (harg4 : arg4.IsWhole)
    (x0 : Vec F S2048x256 .f32) (x1 : Vec F S2048x1 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.Word.Body2.lean ====
/-
  Region 2 of the kernel program: a projection of the hidden layer, its rows scaled by the out-degree column and multiplied
  by the weights, one block of 2048 rows per grid point. Stated for any float family and at any contents `V` the region
  may find in the core's buffers: the block each window stages at a point, what the body leaves in the output window's
  staging buffer (its one store of the product), the body's run on whole staging buffers, the pipeline's proof data and
  the body obligation the pipeline's launch asks for at every point.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or the
    block index did not move: for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev rX2 : Rect S2048x256 := Rect.unit (s := S2048x256) ![0, 0] S2048x256.size inb_S2048x256_S2048x256_0_0
abbrev rS2 : Rect S2048x1 := Rect.unit (s := S2048x1) ![0, 0] S2048x1.size inb_S2048x1_S2048x1_0_0
abbrev rW2 : Rect S256x64 := Rect.unit (s := S256x64) ![0, 0] S256x64.size inb_S256x64_S256x64_0_0
abbrev rO2 : Rect S2048x64 := Rect.unit (s := S2048x64) ![0, 0] S2048x64.size inb_S2048x64_S2048x64_0_0

/-! ## What the body leaves in the output window's buffer -/

/-- The output window's staging buffer after the body: its one store, of the scaled rows' product with the weights. -/
def out2_3 (x0 : Vec F S2048x256 .f32) (x1 : Vec F S2048x1 .f32) (x2 : Vec F S256x64 .f32) : Vec F S2048x64 .f32 :=
  View.canon [⟨rO2, k2_pay1 (View.ld x0 rX2) (View.ld x1 rS2) (View.ld x2 rW2)⟩]

/-- The one store fills the buffer. -/
theorem cover2_3 (p0 : Vec F S2048x64 .f32) (y : S2048x64.Idx) :
    ∃ pc ∈ ([⟨rO2, p0⟩] : List (View.Piece (Elt F) S2048x64 .f32)), y ∈ pc.1.set :=
  View.cover_of_tiled [⟨rO2, p0⟩] S2048x64.size (by rfl) y

/-! ## The body's triple -/

set_option maxHeartbeats 1000000 in
/-- The kernel body on whole staging memrefs, the inputs' at read contents `x0 x1 x2` and the output's at anything, runs to
    the continuation with the inputs' as they were and the output's at `out2_3` of them. -/
theorem sound_kernel2 (c : Dev nD) (E : Set ℕ) (i : grid2.Coords) (arg1 : Memref sig .tc .vmem S2048x256 .f32) (harg1 : arg1.IsWhole) (arg2 : Memref sig .tc .vmem S2048x1 .f32) (harg2 : arg2.IsWhole)
    (arg3 : Memref sig .tc .vmem S256x64 .f32) (harg3 : arg3.IsWhole) (arg4 : Memref sig .tc .vmem S2048x64 .f32) (harg4 : arg4.IsWhole)
    (x0 : Vec F S2048x256 .f32) (x1 : Vec F S2048x1 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer at its block and the output's at `out2_3` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Body

end
-- ==== Proof.Word.Body3.lean ====
/-
  Region 3 of the kernel program: the decoder, a block of 1024 rows of the latent array against a block of 1024 rows of the
  same array, their products summed over the 64 latent features and passed through the logistic function, one block of
  1024 x 1024 per point of the 16 x 16 grid. Stated for any float family and at any contents `V` the region may find in
  the core's buffers: the block each window stages at a point, what the body leaves in the output window's staging
  buffer, the body's run on whole staging buffers, the pipeline's proof data and the body obligation at every point.
  The two input windows read ONE array: the proof data hold it at the left half share for the first and at the right
  half share for the second.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it there or the
    block index did not move: for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole staging buffer -/

abbrev rZ3 : Rect S1024x64 := Rect.unit (s := S1024x64) ![0, 0] S1024x64.size inb_S1024x64_S1024x64_0_0
abbrev rO3 : Rect S1024x1024 := Rect.unit (s := S1024x1024) ![0, 0] S1024x1024.size inb_S1024x1024_S1024x1024_0_0

/-! ## What the body leaves in the output window's buffer -/

/-- The output window's staging buffer after the body: its one store, the logistic of the two blocks' row products. -/
def out3_2 (x0 x1 : Vec F S1024x64 .f32) : Vec F S1024x1024 .f32 :=
  View.canon [⟨rO3, k3_pay1 (View.ld x0 rZ3) (View.ld x1 rZ3)⟩]

/-- The one store fills the buffer. -/
theorem cover3_2 (p0 : Vec F S1024x1024 .f32) (y : S1024x1024.Idx) :
    ∃ pc ∈ ([⟨rO3, p0⟩] : List (View.Piece (Elt F) S1024x1024 .f32)), y ∈ pc.1.set :=
  View.cover_of_tiled [⟨rO3, p0⟩] S1024x1024.size (by rfl) y

/-! ## The body's triple -/

set_option maxHeartbeats 1000000 in
/-- The kernel body on whole staging memrefs, the inputs' at read contents `x0 x1` and the output's at anything, runs to
    the continuation with the inputs' as they were and the output's at `out3_2` of them. -/
theorem sound_kernel3 (c : Dev nD) (E : Set ℕ) (i : grid3.Coords) (arg2 : Memref sig .tc .vmem S1024x64 .f32) (harg2 : arg2.IsWhole)
    (arg3 : Memref sig .tc .vmem S1024x64 .f32) (harg3 : arg3.IsWhole) (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t` each
    input's buffer at its block and the output's at `out3_2` of the input blocks; the invariant is the scoped rest and the
    generator register, untouched; nothing owed; the latent array's full share dealt in halves to the two windows that read it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Body

end
-- ==== Proof.Word.Shared3.lean ====
/-
  Region 3's two input windows read ONE array, the latent array; its output window writes another. At the region's entry
  the core holds each of the two buffers whole; the pipeline wants the latent array twice, once per window, so its full
  share is dealt in two halves, which both say the same contents. At the exit the two halves, still at the entry contents
  (an input array is never written), make the whole again, beside the output array at what the write-backs left.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import proofs.«133462_j79267916415284_1_alg».proof.Proof.Word.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's three windows are two: the latent array and the result. -/
theorem arrImage3 : (Finset.univ.image (Pipeline.arrRef spec3) : Finset (Ref sig .tc)) = {main_v68, main_v69} := by decide

theorem v68_ne_v69 : (main_v68 : Ref sig .tc) ∉ ({main_v69} : Finset (Ref sig .tc)) := by decide

/-- ENTRY: the two buffers, each whole at the contents `V c`, are the pipeline's three arrays at their entry contents,
    the latent array's full share dealt in halves to the two windows that read it. -/
theorem arrays3_of_bufs (c : Dev nD) :
    (Pipeline.arrBufs spec3 c (V c) : sProp 𝕄) ⊢ (dat3 V c).arrays ((dat3 V c).arrAt · 0) := by
  have hbufs : (Pipeline.arrBufs spec3 c (V c) : sProp 𝕄)
      = iprop((((c.tc : Thread nD τ).loc main_v68) ↦{fullShare} V c main_v68) ∗ (((c.tc : Thread nD τ).loc main_v69) ↦{fullShare} V c main_v69)) := by
    unfold Pipeline.arrBufs; rw [arrImage3, bigSep_insert v68_ne_v69, bigSep_singleton]; rfl
  rw [hbufs]
  unfold Dat.arrays
  rw [bigSep_W3]
  rw [(arr_whole3 0).set_eq_univ, (arr_whole3 2).set_eq_univ, share3_0, share3_1, share3_2]
  iintro ⟨H68, H69⟩
  ihave H := (pointsTo_share (PosShare.mem_left_op_right fullShare)).1 $$ H68
  icases H with ⟨Hl, Hr⟩
  isplitl [Hl]; · iexact Hl
  isplitl [Hr]; · iexact Hr
  iexact H69

/-- An input window's array is never written: after every point it still holds the entry contents. -/
theorem arrAt3_0 (c : Dev nD) (n : Nat) : (dat3 V c).arrAt 0 n = V c main_v68 :=
  ((dat3 V c).arrAt_in 0 rfl n).trans (A_eq3 V c 0)
theorem arrAt3_1 (c : Dev nD) (n : Nat) : (dat3 V c).arrAt 1 n = V c main_v68 :=
  ((dat3 V c).arrAt_in 1 rfl n).trans (A_eq3 V c 1)

/-- EXIT: the pipeline's three arrays after the last point — the two halves of the latent array at the entry contents,
    the result at what the write-backs left — are the two buffers whole at any contents `V'` that has the latent array
    as entered and the result as left. -/
theorem bufs_of_arrays3 (c : Dev nD) (V' : (b : Ref sig .tc) → Buf (Elt F) ((c : Thread nD τ).loc b))
    (h68 : V' main_v68 = V c main_v68) (h69 : V' main_v69 = (dat3 V c).arrAt 2 cfg3.N) :
    (dat3 V c).arrays ((dat3 V c).arrAt · cfg3.N) ⊢ (Pipeline.arrBufs spec3 c V' : sProp 𝕄) := by
  have hbufs : (Pipeline.arrBufs spec3 c V' : sProp 𝕄)
      = iprop((((c.tc : Thread nD τ).loc main_v68) ↦{fullShare} V' main_v68) ∗ (((c.tc : Thread nD τ).loc main_v69) ↦{fullShare} V' main_v69)) := by
    unfold Pipeline.arrBufs; rw [arrImage3, bigSep_insert v68_ne_v69, bigSep_singleton]; rfl
  rw [hbufs, h68, h69]
  unfold Dat.arrays
  rw [bigSep_W3]
  beta_reduce
  rw [(arr_whole3 0).set_eq_univ, (arr_whole3 2).set_eq_univ, share3_0, share3_1, share3_2, arrAt3_0, arrAt3_1]
  iintro ⟨Hl, Hr, H69⟩
  isplitl [Hl Hr]
  · iapply (pointsTo_share (PosShare.mem_left_op_right fullShare)).2
    isplitl [Hl]; · iexact Hl
    iexact Hr
  iexact H69

/-- ENTRY over the core's unscoped buffers: at contents `V c` they are the pipeline's arrays at their entry contents and
    the unscoped buffers no window of region 3 reads or writes. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  exact sep_mono (arrays3_of_bufs V c) .rfl

/-- EXIT over the core's unscoped buffers: the arrays after the last point and the untouched rest are the unscoped buffers
    at any contents `V'` with the latent array as entered, the result as left and every other buffer as entered. -/
theorem exit3 (c : Dev nD) (V' : (b : Ref sig .tc) → Buf (Elt F) ((c : Thread nD τ).loc b))
    (h68 : V' main_v68 = V c main_v68) (h69 : V' main_v69 = (dat3 V c).arrAt 2 cfg3.N)
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  rw [Pipeline.unscopedBufs_split₀ cfgs 3 winFacts₀3.arr_unscoped c V']
  refine sep_mono (bufs_of_arrays3 V c V' h68 h69) (Entails.of_eq ?_)
  unfold Pipeline.unscopedRest
  exact bigSep_congr fun b hb => by rw [hrest b (Finset.mem_sdiff.mp hb).2]

end Cert.Kernel.Body

end
-- ==== Proof.Word.Run.lean ====
/-
  The kernel program's run, for any float family: @main is nine items — a stretch of host operations, the first
  projection's kernel region, two stretches, the second projection's region, a stretch, the third projection's region, a
  stretch, the decoder's region — and between two items the core holds every unscoped buffer whole at contents that are
  a fold from the launch memory: a host stretch's operations applied, a region's output array at what its write-backs
  leave and every other buffer as entered. Every weakly fair execution terminates, faults nowhere, and ends with every
  unscoped buffer at the last contents of that fold; the frame claim and the two results are read off it.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import proofs.«133462_j79267916415284_1_alg».proof.Proof.Gen.Kernel.Regions
import proofs.«133462_j79267916415284_1_alg».proof.Proof.Word.Body0
import proofs.«133462_j79267916415284_1_alg».proof.Proof.Word.Body1
import proofs.«133462_j79267916415284_1_alg».proof.Proof.Word.Body2
import proofs.«133462_j79267916415284_1_alg».proof.Proof.Word.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Body
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary between two items: a fold through @main -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two stretches between region 0 and region 1 (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves (the inputs as entered, the output's write-backs folded),
    every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the stretch between region 1 and region 2 (region 2's entry). -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- At region 2's exit: its arrays at what the pipeline leaves (the inputs as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the stretch between region 2 and region 3 (region 3's entry). -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-- At region 3's exit: the result array at what the write-backs leave, every other buffer — the latent array the two
    input windows read among them — as entered. -/
def W9 (c : Dev nD) : Valuation τ sig (Elt F) :=
  Function.update (W8 m c) (Proc.devRef .tc main_v69) ((dat3 (V8 m) c).arrAt 2 cfg3.N)
abbrev V9 : (c : Dev nD) → (b : Ref sig .tc) → Buf (Elt F) ((c : Thread nD τ).loc b) := fun c b => W9 m c b
theorem W9_v69 (c : Dev nD) : V9 m c main_v69 = (dat3 (V8 m) c).arrAt 2 cfg3.N := by
  show Function.update (W8 m c) (Proc.devRef .tc main_v69) _ (Proc.devRef .tc main_v69) = _
  rw [Function.update_self]
theorem W9_of_ne (c : Dev nD) (b : Ref sig .tc) (hb : b ≠ main_v69) : V9 m c b = V8 m c b := by
  show Function.update (W8 m c) (Proc.devRef .tc main_v69) _ (Proc.devRef .tc b) = _
  rw [Function.update_of_ne (StableHlo.devRef_ne_of_ne hb)]

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V6 m) c
  | ⟨3, _⟩ => fun c => dat3 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`. Its arrays are split
    out of the unscoped buffers at the entry and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are split
    out of the unscoped buffers at the entry and put back at the exit contents; the generator register goes into the
    pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are split
    out of the unscoped buffers at the entry and put back at the exit contents; the generator register goes into the
    pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. The latent array is dealt in
    two halves to the two windows that read it and made whole again at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := entry3 (V8 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V8 m c))
        ⊢ (unscopedBufs c (V9 m c) : sProp 𝕄) :=
      exit3 (V8 m) c (V9 m c) (W9_of_ne m c main_v68 (by decide)) (W9_v69 m c)
        (fun b hb => W9_of_ne m c b fun e => hb (by rw [e, arrImage3]; decide))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's nine items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)),
    .region (reg3 m) ]

set_option backward.isDefEq.respectTransparency.types false in
/-- THE RUN. From any memory with zero counters, every weakly fair execution of @main on the TensorCores terminates,
    nothing faulting, and every final state holds every unscoped buffer at the last contents of the fold. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Run

end
-- ==== Proof.Word.Keep.lean ====
/-
  What no item writes stays: through the fold of buffer contents, a host stretch changes only the buffers its operations
  write and a kernel region only its output array (an input window's array is never written). So every argument array
  ends as launched — the frame claim — and the two results end at the fold's last contents of their buffers.
-/
import proofs.«133462_j79267916415284_1_alg».proof.Proof.Gen.Kernel.Launch
import proofs.«133462_j79267916415284_1_alg».proof.Proof.Gen.Kernel.Skeleton
import proofs.«133462_j79267916415284_1_alg».proof.Proof.Gen.Kernel.Points
import proofs.«133462_j79267916415284_1_alg».proof.Proof.Word.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Body
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each item leaves unchanged -/

theorem V1_keep (c : Dev nD) (r : Ref sig .tc) (h : r ∉ hostOps0_W) : V1 m c r = m ((c : Thread nD τ).loc r) :=
  StableHlo.after_of_writes_sub hostOps0 _ hostOps0_writes h

/-- Region 0 leaves every buffer but its output array as entered. -/
theorem V2_keep (c : Dev nD) (r : Ref sig .tc) (hr : r ≠ main_v17) : V2 m c r = V1 m c r := by
  by_cases h : ∃ w, Pipeline.arrRef spec0 w = r
  · obtain ⟨w, rfl⟩ := h
    have hw : (cfg0.win w).isOut = false := by
      match w, hr with
      | ⟨0, _⟩, _ => rfl
      | ⟨1, _⟩, _ => rfl
      | ⟨2, _⟩, _ => rfl
      | ⟨3, _⟩, hr => exact absurd rfl hr
      | ⟨_ + 4, h⟩, _ => exact absurd h (Nat.not_lt.2 (Nat.le_add_left _ _))
    exact (W2_arr m c w).trans (((dat0 (V1 m) c).arrAt_in w hw _).trans (A_eq0 (V1 m) c w))
  · exact W2_of_ne m c r fun w e => h ⟨w, e⟩

theorem V4_keep (c : Dev nD) (r : Ref sig .tc) (h1 : r ∉ hostOps1_W) (h11 : r ∉ hostOps1_1_W) : V4 m c r = V2 m c r :=
  (StableHlo.after_of_writes_sub hostOps1_1 _ hostOps1_1_writes h11).trans (StableHlo.after_of_writes_sub hostOps1 _ hostOps1_writes h1)

/-- Region 1 leaves every buffer but its output array as entered. -/
theorem V5_keep (c : Dev nD) (r : Ref sig .tc) (hr : r ≠ main_v34) : V5 m c r = V4 m c r := by
  by_cases h : ∃ w, Pipeline.arrRef spec1 w = r
  · obtain ⟨w, rfl⟩ := h
    have hw : (cfg1.win w).isOut = false := by
      match w, hr with
      | ⟨0, _⟩, _ => rfl
      | ⟨1, _⟩, _ => rfl
      | ⟨2, _⟩, _ => rfl
      | ⟨3, _⟩, hr => exact absurd rfl hr
      | ⟨_ + 4, h⟩, _ => exact absurd h (Nat.not_lt.2 (Nat.le_add_left _ _))
    exact (W5_arr m c w).trans (((dat1 (V4 m) c).arrAt_in w hw _).trans (A_eq1 (V4 m) c w))
  · exact W5_of_ne m c r fun w e => h ⟨w, e⟩

theorem V6_keep (c : Dev nD) (r : Ref sig .tc) (h : r ∉ hostOps2_W) : V6 m c r = V5 m c r :=
  StableHlo.after_of_writes_sub hostOps2 _ hostOps2_writes h

/-- Region 2 leaves every buffer but its output array as entered. -/
theorem V7_keep (c : Dev nD) (r : Ref sig .tc) (hr : r ≠ main_v50) : V7 m c r = V6 m c r := by
  by_cases h : ∃ w, Pipeline.arrRef spec2 w = r
  · obtain ⟨w, rfl⟩ := h
    have hw : (cfg2.win w).isOut = false := by
      match w, hr with
      | ⟨0, _⟩, _ => rfl
      | ⟨1, _⟩, _ => rfl
      | ⟨2, _⟩, _ => rfl
      | ⟨3, _⟩, hr => exact absurd rfl hr
      | ⟨_ + 4, h⟩, _ => exact absurd h (Nat.not_lt.2 (Nat.le_add_left _ _))
    exact (W7_arr m c w).trans (((dat2 (V6 m) c).arrAt_in w hw _).trans (A_eq2 (V6 m) c w))
  · exact W7_of_ne m c r fun w e => h ⟨w, e⟩

theorem V8_keep (c : Dev nD) (r : Ref sig .tc) (h : r ∉ hostOps3_W) : V8 m c r = V7 m c r :=
  StableHlo.after_of_writes_sub hostOps3 _ hostOps3_writes h

/-- A buffer no item writes ends as launched. -/
theorem V9_launch (c : Dev nD) (r : Ref sig .tc) (h0 : r ∉ hostOps0_W) (h1 : r ∉ hostOps1_W) (h11 : r ∉ hostOps1_1_W)
    (h2 : r ∉ hostOps2_W) (h3 : r ∉ hostOps3_W) (h17 : r ≠ main_v17) (h34 : r ≠ main_v34) (h50 : r ≠ main_v50) (h69 : r ≠ main_v69) :
    V9 m c r = m ((c : Thread nD τ).loc r) :=
  (W9_of_ne m c r h69).trans <| (V8_keep m c r h3).trans <| (V7_keep m c r h50).trans <| (V6_keep m c r h2).trans <|
    (V5_keep m c r h34).trans <| (V4_keep m c r h1 h11).trans <| (V2_keep m c r h17).trans <| V1_keep m c r h0

/-! ## The run's post, read at the arguments and the results -/

/-- Every weakly fair execution terminates, faults nowhere, and ends with the two results at the fold's last contents of
    their buffers and every argument array as launched. -/
theorem run_results (ρ : Dev nD → PrngReg) : θ_run defs (onTc (τ := τ) (main (F := F))) ⟨m, fun _ => 0, ρ⟩ (fun r => ∀ c : Dev nD,
      r.2.mem ((c.tc : Thread nD τ).loc main_v69) = V9 m c main_v69
      ∧ r.2.mem ((c.tc : Thread nD τ).loc main_v68) = V9 m c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v69 (by decide)), h c _ (mem_uc main_v68 (by decide)),
      (h c _ (mem_uc main_arg0 (by decide))).trans (V9_launch m c main_arg0 (by decide) (by decide) (by decide) (by decide) (by decide) (by decide) (by decide) (by decide) (by decide)),
      (h c _ (mem_uc main_arg1 (by decide))).trans (V9_launch m c main_arg1 (by decide) (by decide) (by decide) (by decide) (by decide) (by decide) (by decide) (by decide) (by decide)),
      (h c _ (mem_uc main_arg2 (by decide))).trans (V9_launch m c main_arg2 (by decide) (by decide) (by decide) (by decide) (by decide) (by decide) (by decide) (by decide) (by decide)),
      (h c _ (mem_uc main_arg3 (by decide))).trans (V9_launch m c main_arg3 (by decide) (by decide) (by decide) (by decide) (by decide) (by decide) (by decide) (by decide) (by decide)),
      (h c _ (mem_uc main_arg4 (by decide))).trans (V9_launch m c main_arg4 (by decide) (by decide) (by decide) (by decide) (by decide) (by decide) (by decide) (by decide) (by decide)),
      (h c _ (mem_uc main_arg5 (by decide))).trans (V9_launch m c main_arg5 (by decide) (by decide) (by decide) (by decide) (by decide) (by decide) (by decide) (by decide) (by decide)),
      (h c _ (mem_uc main_arg6 (by decide))).trans (V9_launch m c main_arg6 (by decide) (by decide) (by decide) (by decide) (by decide) (by decide) (by decide) (by decide) (by decide)),
      (h c _ (mem_uc main_arg7 (by decide))).trans (V9_launch m c main_arg7 (by decide) (by decide) (by decide) (by decide) (by decide) (by decide) (by decide) (by decide) (by decide)),
      (h c _ (mem_uc main_arg8 (by decide))).trans (V9_launch m c main_arg8 (by decide) (by decide) (by decide) (by decide) (by decide) (by decide) (by decide) (by decide) (by decide)),
      (h c _ (mem_uc main_arg9 (by decide))).trans (V9_launch m c main_arg9 (by decide) (by decide) (by decide) (by decide) (by decide) (by decide) (by decide) (by decide) (by decide))⟩)
    (run m ρ)

/-- The frame claim at any float family: the run, its results dropped. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2) (run_results m ρ)

end Cert.Kernel.Run

end
-- ==== Proof.Body0.lean ====
/-
  Region 0 of the kernel program: the first projection, rows of the features scaled by the out-degree column and multiplied
  by the weights, one block of 2048 rows per grid point. Stated for any float family and at any contents `V` the region
  may find in the core's buffers: the block each window stages at a point, what the body leaves in the output window's
  staging buffer (its one store of the product), the body's run on whole staging buffers, the pipeline's proof data and
  the body obligation the pipeline's launch asks for at every point.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or the
    block index did not move: for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev rX0 : Rect S2048x512 := Rect.unit (s := S2048x512) ![0, 0] S2048x512.size inb_S2048x512_S2048x512_0_0
abbrev rS0 : Rect S2048x1 := Rect.unit (s := S2048x1) ![0, 0] S2048x1.size inb_S2048x1_S2048x1_0_0
abbrev rW0 : Rect S512x256 := Rect.unit (s := S512x256) ![0, 0] S512x256.size inb_S512x256_S512x256_0_0
abbrev rO0 : Rect S2048x256 := Rect.unit (s := S2048x256) ![0, 0] S2048x256.size inb_S2048x256_S2048x256_0_0

/-! ## What the body leaves in the output window's buffer -/

/-- The output window's staging buffer after the body: its one store, of the scaled rows' product with the weights. -/
def out0_3 (x0 : Vec F S2048x512 .f32) (x1 : Vec F S2048x1 .f32) (x2 : Vec F S512x256 .f32) : Vec F S2048x256 .f32 :=
  View.canon [⟨rO0, k0_pay1 (View.ld x0 rX0) (View.ld x1 rS0) (View.ld x2 rW0)⟩]

/-- The one store fills the buffer. -/
theorem cover0_3 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

/-! ## The body's triple -/

set_option maxHeartbeats 1000000 in
/-- The kernel body on whole staging memrefs, the inputs' at read contents `x0 x1 x2` and the output's at anything, runs to
    the continuation with the inputs' as they were and the output's at `out0_3` of them. -/
theorem sound_kernel0 (c : Dev nD) (E : Set ℕ) (i : grid0.Coords) (arg1 : Memref sig .tc .vmem S2048x512 .f32) (harg1 : arg1.IsWhole) (arg2 : Memref sig .tc .vmem S2048x1 .f32) (harg2 : arg2.IsWhole)
    (arg3 : Memref sig .tc .vmem S512x256 .f32) (harg3 : arg3.IsWhole) (arg4 : Memref sig .tc .vmem S2048x256 .f32) (harg4 : arg4.IsWhole)
    (x0 : Vec F S2048x512 .f32) (x1 : Vec F S2048x1 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.Body1.lean ====
/-
  Region 1 of the kernel program: a projection of the hidden layer, its rows scaled by the out-degree column and multiplied
  by the weights, one block of 2048 rows per grid point. Stated for any float family and at any contents `V` the region
  may find in the core's buffers: the block each window stages at a point, what the body leaves in the output window's
  staging buffer (its one store of the product), the body's run on whole staging buffers, the pipeline's proof data and
  the body obligation the pipeline's launch asks for at every point.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or the
    block index did not move: for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev rX1 : Rect S2048x256 := Rect.unit (s := S2048x256) ![0, 0] S2048x256.size inb_S2048x256_S2048x256_0_0
abbrev rS1 : Rect S2048x1 := Rect.unit (s := S2048x1) ![0, 0] S2048x1.size inb_S2048x1_S2048x1_0_0
abbrev rW1 : Rect S256x64 := Rect.unit (s := S256x64) ![0, 0] S256x64.size inb_S256x64_S256x64_0_0
abbrev rO1 : Rect S2048x64 := Rect.unit (s := S2048x64) ![0, 0] S2048x64.size inb_S2048x64_S2048x64_0_0

/-! ## What the body leaves in the output window's buffer -/

/-- The output window's staging buffer after the body: its one store, of the scaled rows' product with the weights. -/
def out1_3 (x0 : Vec F S2048x256 .f32) (x1 : Vec F S2048x1 .f32) (x2 : Vec F S256x64 .f32) : Vec F S2048x64 .f32 :=
  View.canon [⟨rO1, k1_pay1 (View.ld x0 rX1) (View.ld x1 rS1) (View.ld x2 rW1)⟩]

/-- The one store fills the buffer. -/
theorem cover1_3 (p0 : Vec F S2048x64 .f32) (y : S2048x64.Idx) :
    ∃ pc ∈ ([⟨rO1, p0⟩] : List (View.Piece (Elt F) S2048x64 .f32)), y ∈ pc.1.set :=
  View.cover_of_tiled [⟨rO1, p0⟩] S2048x64.size (by rfl) y

/-! ## The body's triple -/

set_option maxHeartbeats 1000000 in
/-- The kernel body on whole staging memrefs, the inputs' at read contents `x0 x1 x2` and the output's at anything, runs to
    the continuation with the inputs' as they were and the output's at `out1_3` of them. -/
theorem sound_kernel1 (c : Dev nD) (E : Set ℕ) (i : grid1.Coords) (arg1 : Memref sig .tc .vmem S2048x256 .f32) (harg1 : arg1.IsWhole) (arg2 : Memref sig .tc .vmem S2048x1 .f32) (harg2 : arg2.IsWhole)
    (arg3 : Memref sig .tc .vmem S256x64 .f32) (harg3 : arg3.IsWhole) (arg4 : Memref sig .tc .vmem S2048x64 .f32) (harg4 : arg4.IsWhole)
    (x0 : Vec F S2048x256 .f32) (x1 : Vec F S2048x1 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.Body2.lean ====
/-
  Region 2 of the kernel program: a projection of the hidden layer, its rows scaled by the out-degree column and multiplied
  by the weights, one block of 2048 rows per grid point. Stated for any float family and at any contents `V` the region
  may find in the core's buffers: the block each window stages at a point, what the body leaves in the output window's
  staging buffer (its one store of the product), the body's run on whole staging buffers, the pipeline's proof data and
  the body obligation the pipeline's launch asks for at every point.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or the
    block index did not move: for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev rX2 : Rect S2048x256 := Rect.unit (s := S2048x256) ![0, 0] S2048x256.size inb_S2048x256_S2048x256_0_0
abbrev rS2 : Rect S2048x1 := Rect.unit (s := S2048x1) ![0, 0] S2048x1.size inb_S2048x1_S2048x1_0_0
abbrev rW2 : Rect S256x64 := Rect.unit (s := S256x64) ![0, 0] S256x64.size inb_S256x64_S256x64_0_0
abbrev rO2 : Rect S2048x64 := Rect.unit (s := S2048x64) ![0, 0] S2048x64.size inb_S2048x64_S2048x64_0_0

/-! ## What the body leaves in the output window's buffer -/

/-- The output window's staging buffer after the body: its one store, of the scaled rows' product with the weights. -/
def out2_3 (x0 : Vec F S2048x256 .f32) (x1 : Vec F S2048x1 .f32) (x2 : Vec F S256x64 .f32) : Vec F S2048x64 .f32 :=
  View.canon [⟨rO2, k2_pay1 (View.ld x0 rX2) (View.ld x1 rS2) (View.ld x2 rW2)⟩]

/-- The one store fills the buffer. -/
theorem cover2_3 (p0 : Vec F S2048x64 .f32) (y : S2048x64.Idx) :
    ∃ pc ∈ ([⟨rO2, p0⟩] : List (View.Piece (Elt F) S2048x64 .f32)), y ∈ pc.1.set :=
  View.cover_of_tiled [⟨rO2, p0⟩] S2048x64.size (by rfl) y

/-! ## The body's triple -/

set_option maxHeartbeats 1000000 in
/-- The kernel body on whole staging memrefs, the inputs' at read contents `x0 x1 x2` and the output's at anything, runs to
    the continuation with the inputs' as they were and the output's at `out2_3` of them. -/
theorem sound_kernel2 (c : Dev nD) (E : Set ℕ) (i : grid2.Coords) (arg1 : Memref sig .tc .vmem S2048x256 .f32) (harg1 : arg1.IsWhole) (arg2 : Memref sig .tc .vmem S2048x1 .f32) (harg2 : arg2.IsWhole)
    (arg3 : Memref sig .tc .vmem S256x64 .f32) (harg3 : arg3.IsWhole) (arg4 : Memref sig .tc .vmem S2048x64 .f32) (harg4 : arg4.IsWhole)
    (x0 : Vec F S2048x256 .f32) (x1 : Vec F S2048x1 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t` each
    input's buffer at its block and the output's at `out2_3` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body

end
-- ==== Proof.Body3.lean ====
/-
  Region 3 of the kernel program: the decoder, a block of 1024 rows of the latent array against a block of 1024 rows of the
  same array, their products summed over the 64 latent features and passed through the logistic function, one block of
  1024 x 1024 per point of the 16 x 16 grid. Stated for any float family and at any contents `V` the region may find in
  the core's buffers: the block each window stages at a point, what the body leaves in the output window's staging
  buffer, the body's run on whole staging buffers, the pipeline's proof data and the body obligation at every point.
  The two input windows read ONE array: the proof data hold it at the left half share for the first and at the right
  half share for the second.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it there or the
    block index did not move: for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole staging buffer -/

abbrev rZ3 : Rect S1024x64 := Rect.unit (s := S1024x64) ![0, 0] S1024x64.size inb_S1024x64_S1024x64_0_0
abbrev rO3 : Rect S1024x1024 := Rect.unit (s := S1024x1024) ![0, 0] S1024x1024.size inb_S1024x1024_S1024x1024_0_0

/-! ## What the body leaves in the output window's buffer -/

/-- The output window's staging buffer after the body: its one store, the logistic of the two blocks' row products. -/
def out3_2 (x0 x1 : Vec F S1024x64 .f32) : Vec F S1024x1024 .f32 :=
  View.canon [⟨rO3, k3_pay1 (View.ld x0 rZ3) (View.ld x1 rZ3)⟩]

/-- The one store fills the buffer. -/
theorem cover3_2 (p0 : Vec F S1024x1024 .f32) (y : S1024x1024.Idx) :
    ∃ pc ∈ ([⟨rO3, p0⟩] : List (View.Piece (Elt F) S1024x1024 .f32)), y ∈ pc.1.set :=
  View.cover_of_tiled [⟨rO3, p0⟩] S1024x1024.size (by rfl) y

/-! ## The body's triple -/

set_option maxHeartbeats 1000000 in
/-- The kernel body on whole staging memrefs, the inputs' at read contents `x0 x1` and the output's at anything, runs to
    the continuation with the inputs' as they were and the output's at `out3_2` of them. -/
theorem sound_kernel3 (c : Dev nD) (E : Set ℕ) (i : grid3.Coords) (arg2 : Memref sig .tc .vmem S1024x64 .f32) (harg2 : arg2.IsWhole)
    (arg3 : Memref sig .tc .vmem S1024x64 .f32) (harg3 : arg3.IsWhole) (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t` each
    input's buffer at its block and the output's at `out3_2` of the input blocks; the invariant is the scoped rest and the
    generator register, untouched; nothing owed; the latent array's full share dealt in halves to the two windows that read it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Body

end
-- ==== Proof.Shared3.lean ====
/-
  Region 3's two input windows read ONE array, the latent array; its output window writes another. At the region's entry
  the core holds each of the two buffers whole; the pipeline wants the latent array twice, once per window, so its full
  share is dealt in two halves, which both say the same contents. At the exit the two halves, still at the entry contents
  (an input array is never written), make the whole again, beside the output array at what the write-backs left.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import proofs.«133462_j79267916415284_1_alg».proof.Proof.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's three windows are two: the latent array and the result. -/
theorem arrImage3 : (Finset.univ.image (Pipeline.arrRef spec3) : Finset (Ref sig .tc)) = {main_v68, main_v69} := by decide

theorem v68_ne_v69 : (main_v68 : Ref sig .tc) ∉ ({main_v69} : Finset (Ref sig .tc)) := by decide

/-- ENTRY: the two buffers, each whole at the contents `V c`, are the pipeline's three arrays at their entry contents,
    the latent array's full share dealt in halves to the two windows that read it. -/
theorem arrays3_of_bufs (c : Dev nD) :
    (Pipeline.arrBufs spec3 c (V c) : sProp 𝕄) ⊢ (dat3 V c).arrays ((dat3 V c).arrAt · 0) := by
  have hbufs : (Pipeline.arrBufs spec3 c (V c) : sProp 𝕄)
      = iprop((((c.tc : Thread nD τ).loc main_v68) ↦{fullShare} V c main_v68) ∗ (((c.tc : Thread nD τ).loc main_v69) ↦{fullShare} V c main_v69)) := by
    unfold Pipeline.arrBufs; rw [arrImage3, bigSep_insert v68_ne_v69, bigSep_singleton]; rfl
  rw [hbufs]
  unfold Dat.arrays
  rw [bigSep_W3]
  rw [(arr_whole3 0).set_eq_univ, (arr_whole3 2).set_eq_univ, share3_0, share3_1, share3_2]
  iintro ⟨H68, H69⟩
  ihave H := (pointsTo_share (PosShare.mem_left_op_right fullShare)).1 $$ H68
  icases H with ⟨Hl, Hr⟩
  isplitl [Hl]; · iexact Hl
  isplitl [Hr]; · iexact Hr
  iexact H69

/-- An input window's array is never written: after every point it still holds the entry contents. -/
theorem arrAt3_0 (c : Dev nD) (n : Nat) : (dat3 V c).arrAt 0 n = V c main_v68 :=
  ((dat3 V c).arrAt_in 0 rfl n).trans (A_eq3 V c 0)
theorem arrAt3_1 (c : Dev nD) (n : Nat) : (dat3 V c).arrAt 1 n = V c main_v68 :=
  ((dat3 V c).arrAt_in 1 rfl n).trans (A_eq3 V c 1)

/-- EXIT: the pipeline's three arrays after the last point — the two halves of the latent array at the entry contents,
    the result at what the write-backs left — are the two buffers whole at any contents `V'` that has the latent array
    as entered and the result as left. -/
theorem bufs_of_arrays3 (c : Dev nD) (V' : (b : Ref sig .tc) → Buf (Elt F) ((c : Thread nD τ).loc b))
    (h68 : V' main_v68 = V c main_v68) (h69 : V' main_v69 = (dat3 V c).arrAt 2 cfg3.N) :
    (dat3 V c).arrays ((dat3 V c).arrAt · cfg3.N) ⊢ (Pipeline.arrBufs spec3 c V' : sProp 𝕄) := by
  have hbufs : (Pipeline.arrBufs spec3 c V' : sProp 𝕄)
      = iprop((((c.tc : Thread nD τ).loc main_v68) ↦{fullShare} V' main_v68) ∗ (((c.tc : Thread nD τ).loc main_v69) ↦{fullShare} V' main_v69)) := by
    unfold Pipeline.arrBufs; rw [arrImage3, bigSep_insert v68_ne_v69, bigSep_singleton]; rfl
  rw [hbufs, h68, h69]
  unfold Dat.arrays
  rw [bigSep_W3]
  beta_reduce
  rw [(arr_whole3 0).set_eq_univ, (arr_whole3 2).set_eq_univ, share3_0, share3_1, share3_2, arrAt3_0, arrAt3_1]
  iintro ⟨Hl, Hr, H69⟩
  isplitl [Hl Hr]
  · iapply (pointsTo_share (PosShare.mem_left_op_right fullShare)).2
    isplitl [Hl]; · iexact Hl
    iexact Hr
  iexact H69

/-- ENTRY over the core's unscoped buffers: at contents `V c` they are the pipeline's arrays at their entry contents and
    the unscoped buffers no window of region 3 reads or writes. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  exact sep_mono (arrays3_of_bufs V c) .rfl

/-- EXIT over the core's unscoped buffers: the arrays after the last point and the untouched rest are the unscoped buffers
    at any contents `V'` with the latent array as entered, the result as left and every other buffer as entered. -/
theorem exit3 (c : Dev nD) (V' : (b : Ref sig .tc) → Buf (Elt F) ((c : Thread nD τ).loc b))
    (h68 : V' main_v68 = V c main_v68) (h69 : V' main_v69 = (dat3 V c).arrAt 2 cfg3.N)
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  rw [Pipeline.unscopedBufs_split₀ cfgs 3 winFacts₀3.arr_unscoped c V']
  refine sep_mono (bufs_of_arrays3 V c V' h68 h69) (Entails.of_eq ?_)
  unfold Pipeline.unscopedRest
  exact bigSep_congr fun b hb => by rw [hrest b (Finset.mem_sdiff.mp hb).2]

end Cert.KernelIdeal.Body

end
-- ==== Proof.Run.lean ====
/-
  The kernel program's run, for any float family: @main is nine items — a stretch of host operations, the first
  projection's kernel region, two stretches, the second projection's region, a stretch, the third projection's region, a
  stretch, the decoder's region — and between two items the core holds every unscoped buffer whole at contents that are
  a fold from the launch memory: a host stretch's operations applied, a region's output array at what its write-backs
  leave and every other buffer as entered. Every weakly fair execution terminates, faults nowhere, and ends with every
  unscoped buffer at the last contents of that fold; the frame claim and the two results are read off it.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import proofs.«133462_j79267916415284_1_alg».proof.Proof.Gen.KernelIdeal.Regions
import proofs.«133462_j79267916415284_1_alg».proof.Proof.Body0
import proofs.«133462_j79267916415284_1_alg».proof.Proof.Body1
import proofs.«133462_j79267916415284_1_alg».proof.Proof.Body2
import proofs.«133462_j79267916415284_1_alg».proof.Proof.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Body
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary between two items: a fold through @main -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two stretches between region 0 and region 1 (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves (the inputs as entered, the output's write-backs folded),
    every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the stretch between region 1 and region 2 (region 2's entry). -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- At region 2's exit: its arrays at what the pipeline leaves (the inputs as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the stretch between region 2 and region 3 (region 3's entry). -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-- At region 3's exit: the result array at what the write-backs leave, every other buffer — the latent array the two
    input windows read among them — as entered. -/
def W9 (c : Dev nD) : Valuation τ sig (Elt F) :=
  Function.update (W8 m c) (Proc.devRef .tc main_v69) ((dat3 (V8 m) c).arrAt 2 cfg3.N)
abbrev V9 : (c : Dev nD) → (b : Ref sig .tc) → Buf (Elt F) ((c : Thread nD τ).loc b) := fun c b => W9 m c b
theorem W9_v69 (c : Dev nD) : V9 m c main_v69 = (dat3 (V8 m) c).arrAt 2 cfg3.N := by
  show Function.update (W8 m c) (Proc.devRef .tc main_v69) _ (Proc.devRef .tc main_v69) = _
  rw [Function.update_self]
theorem W9_of_ne (c : Dev nD) (b : Ref sig .tc) (hb : b ≠ main_v69) : V9 m c b = V8 m c b := by
  show Function.update (W8 m c) (Proc.devRef .tc main_v69) _ (Proc.devRef .tc b) = _
  rw [Function.update_of_ne (StableHlo.devRef_ne_of_ne hb)]

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V6 m) c
  | ⟨3, _⟩ => fun c => dat3 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`. Its arrays are split
    out of the unscoped buffers at the entry and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are split
    out of the unscoped buffers at the entry and put back at the exit contents; the generator register goes into the
    pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are split
    out of the unscoped buffers at the entry and put back at the exit contents; the generator register goes into the
    pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. The latent array is dealt in
    two halves to the two windows that read it and made whole again at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := entry3 (V8 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V8 m c))
        ⊢ (unscopedBufs c (V9 m c) : sProp 𝕄) :=
      exit3 (V8 m) c (V9 m c) (W9_of_ne m c main_v68 (by decide)) (W9_v69 m c)
        (fun b hb => W9_of_ne m c b fun e => hb (by rw [e, arrImage3]; decide))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's nine items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)),
    .region (reg3 m) ]

set_option backward.isDefEq.respectTransparency.types false in
/-- THE RUN. From any memory with zero counters, every weakly fair execution of @main on the TensorCores terminates,
    nothing faulting, and every final state holds every unscoped buffer at the last contents of the fold. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Run

end
-- ==== Proof.Keep.lean ====
/-
  What no item writes stays: through the fold of buffer contents, a host stretch changes only the buffers its operations
  write and a kernel region only its output array (an input window's array is never written). So every argument array
  ends as launched — the frame claim — and the two results end at the fold's last contents of their buffers.
-/
import proofs.«133462_j79267916415284_1_alg».proof.Proof.Gen.KernelIdeal.Launch
import proofs.«133462_j79267916415284_1_alg».proof.Proof.Gen.KernelIdeal.Skeleton
import proofs.«133462_j79267916415284_1_alg».proof.Proof.Gen.KernelIdeal.Points
import proofs.«133462_j79267916415284_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Body
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each item leaves unchanged -/

theorem V1_keep (c : Dev nD) (r : Ref sig .tc) (h : r ∉ hostOps0_W) : V1 m c r = m ((c : Thread nD τ).loc r) :=
  StableHlo.after_of_writes_sub hostOps0 _ hostOps0_writes h

/-- Region 0 leaves every buffer but its output array as entered. -/
theorem V2_keep (c : Dev nD) (r : Ref sig .tc) (hr : r ≠ main_v17) : V2 m c r = V1 m c r := by
  by_cases h : ∃ w, Pipeline.arrRef spec0 w = r
  · obtain ⟨w, rfl⟩ := h
    have hw : (cfg0.win w).isOut = false := by
      match w, hr with
      | ⟨0, _⟩, _ => rfl
      | ⟨1, _⟩, _ => rfl
      | ⟨2, _⟩, _ => rfl
      | ⟨3, _⟩, hr => exact absurd rfl hr
      | ⟨_ + 4, h⟩, _ => exact absurd h (Nat.not_lt.2 (Nat.le_add_left _ _))
    exact (W2_arr m c w).trans (((dat0 (V1 m) c).arrAt_in w hw _).trans (A_eq0 (V1 m) c w))
  · exact W2_of_ne m c r fun w e => h ⟨w, e⟩

theorem V4_keep (c : Dev nD) (r : Ref sig .tc) (h1 : r ∉ hostOps1_W) (h11 : r ∉ hostOps1_1_W) : V4 m c r = V2 m c r :=
  (StableHlo.after_of_writes_sub hostOps1_1 _ hostOps1_1_writes h11).trans (StableHlo.after_of_writes_sub hostOps1 _ hostOps1_writes h1)

/-- Region 1 leaves every buffer but its output array as entered. -/
theorem V5_keep (c : Dev nD) (r : Ref sig .tc) (hr : r ≠ main_v34) : V5 m c r = V4 m c r := by
  by_cases h : ∃ w, Pipeline.arrRef spec1 w = r
  · obtain ⟨w, rfl⟩ := h
    have hw : (cfg1.win w).isOut = false := by
      match w, hr with
      | ⟨0, _⟩, _ => rfl
      | ⟨1, _⟩, _ => rfl
      | ⟨2, _⟩, _ => rfl
      | ⟨3, _⟩, hr => exact absurd rfl hr
      | ⟨_ + 4, h⟩, _ => exact absurd h (Nat.not_lt.2 (Nat.le_add_left _ _))
    exact (W5_arr m c w).trans (((dat1 (V4 m) c).arrAt_in w hw _).trans (A_eq1 (V4 m) c w))
  · exact W5_of_ne m c r fun w e => h ⟨w, e⟩

theorem V6_keep (c : Dev nD) (r : Ref sig .tc) (h : r ∉ hostOps2_W) : V6 m c r = V5 m c r :=
  StableHlo.after_of_writes_sub hostOps2 _ hostOps2_writes h

/-- Region 2 leaves every buffer but its output array as entered. -/
theorem V7_keep (c : Dev nD) (r : Ref sig .tc) (hr : r ≠ main_v50) : V7 m c r = V6 m c r := by
  by_cases h : ∃ w, Pipeline.arrRef spec2 w = r
  · obtain ⟨w, rfl⟩ := h
    have hw : (cfg2.win w).isOut = false := by
      match w, hr with
      | ⟨0, _⟩, _ => rfl
      | ⟨1, _⟩, _ => rfl
      | ⟨2, _⟩, _ => rfl
      | ⟨3, _⟩, hr => exact absurd rfl hr
      | ⟨_ + 4, h⟩, _ => exact absurd h (Nat.not_lt.2 (Nat.le_add_left _ _))
    exact (W7_arr m c w).trans (((dat2 (V6 m) c).arrAt_in w hw _).trans (A_eq2 (V6 m) c w))
  · exact W7_of_ne m c r fun w e => h ⟨w, e⟩

theorem V8_keep (c : Dev nD) (r : Ref sig .tc) (h : r ∉ hostOps3_W) : V8 m c r = V7 m c r :=
  StableHlo.after_of_writes_sub hostOps3 _ hostOps3_writes h

/-- A buffer no item writes ends as launched. -/
theorem V9_launch (c : Dev nD) (r : Ref sig .tc) (h0 : r ∉ hostOps0_W) (h1 : r ∉ hostOps1_W) (h11 : r ∉ hostOps1_1_W)
    (h2 : r ∉ hostOps2_W) (h3 : r ∉ hostOps3_W) (h17 : r ≠ main_v17) (h34 : r ≠ main_v34) (h50 : r ≠ main_v50) (h69 : r ≠ main_v69) :
    V9 m c r = m ((c : Thread nD τ).loc r) :=
  (W9_of_ne m c r h69).trans <| (V8_keep m c r h3).trans <| (V7_keep m c r h50).trans <| (V6_keep m c r h2).trans <|
    (V5_keep m c r h34).trans <| (V4_keep m c r h1 h11).trans <| (V2_keep m c r h17).trans <| V1_keep m c r h0

/-! ## The run's post, read at the arguments and the results -/

/-- Every weakly fair execution terminates, faults nowhere, and ends with the two results at the fold's last contents of
    their buffers and every argument array as launched. -/
theorem run_results (ρ : Dev nD → PrngReg) : θ_run defs (onTc (τ := τ) (main (F := F))) ⟨m, fun _ => 0, ρ⟩ (fun r => ∀ c : Dev nD,
      r.2.mem ((c.tc : Thread nD τ).loc main_v69) = V9 m c main_v69
      ∧ r.2.mem ((c.tc : Thread nD τ).loc main_v68) = V9 m c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v69 (by decide)), h c _ (mem_uc main_v68 (by decide)),
      (h c _ (mem_uc main_arg0 (by decide))).trans (V9_launch m c main_arg0 (by decide) (by decide) (by decide) (by decide) (by decide) (by decide) (by decide) (by decide) (by decide)),
      (h c _ (mem_uc main_arg1 (by decide))).trans (V9_launch m c main_arg1 (by decide) (by decide) (by decide) (by decide) (by decide) (by decide) (by decide) (by decide) (by decide)),
      (h c _ (mem_uc main_arg2 (by decide))).trans (V9_launch m c main_arg2 (by decide) (by decide) (by decide) (by decide) (by decide) (by decide) (by decide) (by decide) (by decide)),
      (h c _ (mem_uc main_arg3 (by decide))).trans (V9_launch m c main_arg3 (by decide) (by decide) (by decide) (by decide) (by decide) (by decide) (by decide) (by decide) (by decide)),
      (h c _ (mem_uc main_arg4 (by decide))).trans (V9_launch m c main_arg4 (by decide) (by decide) (by decide) (by decide) (by decide) (by decide) (by decide) (by decide) (by decide)),
      (h c _ (mem_uc main_arg5 (by decide))).trans (V9_launch m c main_arg5 (by decide) (by decide) (by decide) (by decide) (by decide) (by decide) (by decide) (by decide) (by decide)),
      (h c _ (mem_uc main_arg6 (by decide))).trans (V9_launch m c main_arg6 (by decide) (by decide) (by decide) (by decide) (by decide) (by decide) (by decide) (by decide) (by decide)),
      (h c _ (mem_uc main_arg7 (by decide))).trans (V9_launch m c main_arg7 (by decide) (by decide) (by decide) (by decide) (by decide) (by decide) (by decide) (by decide) (by decide)),
      (h c _ (mem_uc main_arg8 (by decide))).trans (V9_launch m c main_arg8 (by decide) (by decide) (by decide) (by decide) (by decide) (by decide) (by decide) (by decide) (by decide)),
      (h c _ (mem_uc main_arg9 (by decide))).trans (V9_launch m c main_arg9 (by decide) (by decide) (by decide) (by decide) (by decide) (by decide) (by decide) (by decide) (by decide))⟩)
    (run m ρ)

/-- The frame claim at any float family: the run, its results dropped. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2) (run_results m ρ)

end Cert.KernelIdeal.Run

end
-- ==== Proof.Stages.lean ====
/-
  The stages both programs share, each as one function of whole arrays, for any float family.

  Both programs compute a graph auto-encoder. Writing `src`, `dst` for the edge lists:
    * `norm idx`   — the vector (max (number of edges whose endpoint is node n, 1)) ^ (-1/2), a segment count by scatter-add;
    * `col v`      — that vector as a column [16384, 1];
    * `wrap src`   — the gather's start indices: a negative index moved up by 16384, as a column of indices;
    * `layer256 p`, `layer64 p` — a projected feature array `p` gathered along `src`, summed into the rows `dst`
      (scatter-add into zeros), scaled row by row by the in-degree column and shifted by the bias row;
    * `relu`, and `latent mean noise logstd = mean + noise * exp logstd`.
  The reference computes a projection as `(x * column) @ w` on the host (`refProj512`, `refProj256`) and the decoder as
  `1 / (1 + exp (-(z @ zᵀ)))` (`refDecode`). The kernel program computes the projections and the decoder in kernels and
  everything else by the same host operations, so its results are these same stages around the kernels' arrays.
-/
import proofs.«133462_j79267916415284_1_alg».proof.Proof.Gen.ReferenceIdeal

noncomputable section

namespace Cert.Stages

open Idealize.ShloMosaic Cert.ReferenceIdeal Cert.ReferenceIdeal.Gen

variable {F : FTy → Type} [FloatOps F]

/-- A float array of shape `S`, as the host operations take it. -/
abbrev Arr (F : FTy → Type) (S : Shape) : Type := (⟨S, .f32⟩ : BufTy).Contents (Elt F)
/-- A 32-bit integer array of shape `S`. -/
abbrev Ints (F : FTy → Type) (S : Shape) : Type := (⟨S, .i32⟩ : BufTy).Contents (Elt F)

/-- `(max (count of idx = n, 1)) ^ (-1/2)` for every node `n`: the degree normalisation. -/
def norm (idx : Ints F S524288) : Arr F S16384 :=
  Host.powf (maximumf (Host.scatterAdd scatter_S16384_S524288x1_S524288_n_0_0_1 (broadcastInDim S16384 ![] bcast_S_S16384 (constant S_ .f32 0x00000000#32)) (broadcastInDim S524288x1 ![0] bcast_S524288_S524288x1_0 idx) (broadcastInDim S524288 ![] bcast_S_S524288 (constant S_ .f32 0x3F800000#32))) (broadcastInDim S16384 ![] bcast_S_S16384 (constant S_ .f32 0x3F800000#32))) (broadcastInDim S16384 ![] bcast_S_S16384 (constant S_ .f32 0xBF000000#32))

/-- A node vector as a column. -/
def col (v : Arr F S16384) : Arr F S16384x1 := broadcastInDim S16384x1 ![0] bcast_S16384_S16384x1_0 v

/-- The gather's start indices: `src`, a negative entry moved up by the node count, as a column. -/
def wrap (src : Ints F S524288) : Ints F S524288x1 :=
  broadcastInDim S524288x1 ![0] bcast_S524288_S524288x1_0 (select (cmpi .slt src (broadcastInDim S524288 ![] bcast_S_S524288 (constantI S_ 32 0#32))) (addi src (broadcastInDim S524288 ![] bcast_S_S524288 (constantI S_ 32 16384#32))) src)

/-- One graph-convolution aggregation at width 256: gather `p` along `src`, sum into rows `dst`, scale by the in-degree
    column, add the bias row. -/
def layer256 (p : Arr F S16384x256) (src dst : Ints F S524288) (dinCol : Arr F S16384x1) (b : Arr F S256) : Arr F S16384x256 :=
  addf (mulf (Host.scatterAdd scatter_S16384x256_S524288x1_S524288x256_1_0_0_1 (broadcastInDim S16384x256 ![] bcast_S_S16384x256 (constant S_ .f32 0x00000000#32)) (broadcastInDim S524288x1 ![0] bcast_S524288_S524288x1_0 dst) (Host.gather gather_S16384x256_S524288x1_S524288x256_1_0_n_n_0_1_1256 p (wrap src))) (broadcastInDim S16384x256 ![0, 1] bcast_S16384x1_S16384x256_0_1 dinCol)) (broadcastInDim S16384x256 ![0, 1] bcast_S1x256_S16384x256_0_1 (broadcastInDim S1x256 ![1] bcast_S256_S1x256_1 b))

/-- The same at width 64. -/
def layer64 (p : Arr F S16384x64) (src dst : Ints F S524288) (dinCol : Arr F S16384x1) (b : Arr F S64) : Arr F S16384x64 :=
  addf (mulf (Host.scatterAdd scatter_S16384x64_S524288x1_S524288x64_1_0_0_1 (broadcastInDim S16384x64 ![] bcast_S_S16384x64 (constant S_ .f32 0x00000000#32)) (broadcastInDim S524288x1 ![0] bcast_S524288_S524288x1_0 dst) (Host.gather gather_S16384x64_S524288x1_S524288x64_1_0_n_n_0_1_164 p (wrap src))) (broadcastInDim S16384x64 ![0, 1] bcast_S16384x1_S16384x64_0_1 dinCol)) (broadcastInDim S16384x64 ![0, 1] bcast_S1x64_S16384x64_0_1 (broadcastInDim S1x64 ![1] bcast_S64_S1x64_1 b))

/-- `max x 0`, entry by entry. -/
def relu (x : Arr F S16384x256) : Arr F S16384x256 :=
  maximumf x (broadcastInDim S16384x256 ![] bcast_S_S16384x256 (constant S_ .f32 0x00000000#32))

/-- The latent sample `mean + noise * exp logstd`. -/
def latent (mean noise logstd : Arr F S16384x64) : Arr F S16384x64 := addf mean (mulf noise (Host.exp logstd))

/-- The reference's first projection: `(x * column) @ w`, 512 features to 256. -/
def refProj512 (x : Arr F S16384x512) (s : Arr F S16384x1) (w : Arr F S512x256) : Arr F S16384x256 :=
  Host.dotGeneral dot_S16384x512_S512x256_S16384x256_1_0_0_1_n_n none (mulf x (broadcastInDim S16384x512 ![0, 1] bcast_S16384x1_S16384x512_0_1 s)) w

/-- The reference's second and third projections: `(x * column) @ w`, 256 features to 64. -/
def refProj256 (x : Arr F S16384x256) (s : Arr F S16384x1) (w : Arr F S256x64) : Arr F S16384x64 :=
  Host.dotGeneral dot_S16384x256_S256x64_S16384x64_1_0_0_1_n_n none (mulf x (broadcastInDim S16384x256 ![0, 1] bcast_S16384x1_S16384x256_0_1 s)) w

/-- The reference's decoder: `1 / (1 + exp (-(z @ zᵀ)))`. -/
def refDecode (z : Arr F S16384x64) : Arr F S16384x16384 :=
  Host.divf (broadcastInDim S16384x16384 ![] bcast_S_S16384x16384 (constant S_ .f32 0x3F800000#32)) (addf (broadcastInDim S16384x16384 ![] bcast_S_S16384x16384 (constant S_ .f32 0x3F800000#32)) (Host.exp (Host.negf (Host.dotGeneral dot_S16384x64_S64x16384_S16384x16384_1_0_0_1_n_n none z (transpose S64x16384 [1, 0] z transposes_S16384x64_S64x16384_1_0)))))

/-- The hidden layer from the first projection's array. -/
def hidden (p : Arr F S16384x256) (src dst : Ints F S524288) (b1 : Arr F S256) : Arr F S16384x256 :=
  relu (layer256 p src dst (col (norm dst)) b1)

/-- The whole latent array `z` from the three projections' arrays. -/
def zOf (pMean pLog : Arr F S16384x64) (src dst : Ints F S524288) (noise : Arr F S16384x64) (b2 b3 : Arr F S64) : Arr F S16384x64 :=
  latent (layer64 pMean src dst (col (norm dst)) b2) noise (layer64 pLog src dst (col (norm dst)) b3)

end Cert.Stages

end
-- ==== Proof.ProjMath.lean ====
/-
  The two spellings of a projection, read at one entry, at the ideal instance.
  The reference multiplies every row of `x` by its entry of the column `s` and contracts with `w`; the kernel does the same
  to a block of 2048 rows (the changes of float format are the identity at the ideal instance, the matrix unit's product
  into a zero accumulator is the plain sum). Both are the sum over the contracted feature `k` of `(x[i,k] * s[i,0]) * w[k,j]`.
-/
import proofs.«133462_j79267916415284_1_alg».proof.Proof.Stages
import proofs.«133462_j79267916415284_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ProjMath

open Idealize.ShloMosaic Idealize.ShloMosaic.ValueIdx Cert.Stages

/-! ## The contractions' operand indices, axis by axis

Each of the four contractions takes axis 1 of its left operand against axis 0 of its right operand and has no batch axis:
at the output entry `(i, j)` and the contracted feature `k` the left operand is read at `(i, k)` and the right one at `(k, j)`. -/

private theorem ref512_lhs_0 (i : Cert.ReferenceIdeal.S16384x256.Idx) (q : Cert.ReferenceIdeal.dot_S16384x512_S512x256_S16384x256_1_0_0_1_n_n.contr.Idx) :
    (Cert.ReferenceIdeal.dot_S16384x512_S512x256_S16384x256_1_0_0_1_n_n.lhsIdx i q 0).val = (i 0).val := by
  unfold DotDims.lhsIdx
  rw [dif_neg (show ¬(0 : Fin Cert.ReferenceIdeal.S16384x512.rank) ∈ Cert.ReferenceIdeal.dot_S16384x512_S512x256_S16384x256_1_0_0_1_n_n.lhsBatch by decide), dif_pos (show (0 : Fin Cert.ReferenceIdeal.S16384x512.rank) ∈ Cert.ReferenceIdeal.dot_S16384x512_S512x256_S16384x256_1_0_0_1_n_n.lhsNonContracting by decide)]
  rfl
private theorem ref512_lhs_1 (i : Cert.ReferenceIdeal.S16384x256.Idx) (q : Cert.ReferenceIdeal.dot_S16384x512_S512x256_S16384x256_1_0_0_1_n_n.contr.Idx) :
    (Cert.ReferenceIdeal.dot_S16384x512_S512x256_S16384x256_1_0_0_1_n_n.lhsIdx i q 1).val = (q ⟨0, by decide⟩).val :=
  Cert.ReferenceIdeal.dot_S16384x512_S512x256_S16384x256_1_0_0_1_n_n.lhsIdx_val_of_single rfl i q
private theorem ref512_rhs_0 (i : Cert.ReferenceIdeal.S16384x256.Idx) (q : Cert.ReferenceIdeal.dot_S16384x512_S512x256_S16384x256_1_0_0_1_n_n.contr.Idx) :
    (Cert.ReferenceIdeal.dot_S16384x512_S512x256_S16384x256_1_0_0_1_n_n.rhsIdx i q 0).val = (q ⟨0, by decide⟩).val :=
  Cert.ReferenceIdeal.dot_S16384x512_S512x256_S16384x256_1_0_0_1_n_n.rhsIdx_val_of_single rfl i q
private theorem ref512_rhs_1 (i : Cert.ReferenceIdeal.S16384x256.Idx) (q : Cert.ReferenceIdeal.dot_S16384x512_S512x256_S16384x256_1_0_0_1_n_n.contr.Idx) :
    (Cert.ReferenceIdeal.dot_S16384x512_S512x256_S16384x256_1_0_0_1_n_n.rhsIdx i q 1).val = (i 1).val := by
  unfold DotDims.rhsIdx
  rw [dif_neg (show ¬(1 : Fin Cert.ReferenceIdeal.S512x256.rank) ∈ Cert.ReferenceIdeal.dot_S16384x512_S512x256_S16384x256_1_0_0_1_n_n.rhsBatch by decide), dif_pos (show (1 : Fin Cert.ReferenceIdeal.S512x256.rank) ∈ Cert.ReferenceIdeal.dot_S16384x512_S512x256_S16384x256_1_0_0_1_n_n.rhsNonContracting by decide)]
  rfl

private theorem ref256_lhs_0 (i : Cert.ReferenceIdeal.S16384x64.Idx) (q : Cert.ReferenceIdeal.dot_S16384x256_S256x64_S16384x64_1_0_0_1_n_n.contr.Idx) :
    (Cert.ReferenceIdeal.dot_S16384x256_S256x64_S16384x64_1_0_0_1_n_n.lhsIdx i q 0).val = (i 0).val := by
  unfold DotDims.lhsIdx
  rw [dif_neg (show ¬(0 : Fin Cert.ReferenceIdeal.S16384x256.rank) ∈ Cert.ReferenceIdeal.dot_S16384x256_S256x64_S16384x64_1_0_0_1_n_n.lhsBatch by decide), dif_pos (show (0 : Fin Cert.ReferenceIdeal.S16384x256.rank) ∈ Cert.ReferenceIdeal.dot_S16384x256_S256x64_S16384x64_1_0_0_1_n_n.lhsNonContracting by decide)]
  rfl
private theorem ref256_lhs_1 (i : Cert.ReferenceIdeal.S16384x64.Idx) (q : Cert.ReferenceIdeal.dot_S16384x256_S256x64_S16384x64_1_0_0_1_n_n.contr.Idx) :
    (Cert.ReferenceIdeal.dot_S16384x256_S256x64_S16384x64_1_0_0_1_n_n.lhsIdx i q 1).val = (q ⟨0, by decide⟩).val :=
  Cert.ReferenceIdeal.dot_S16384x256_S256x64_S16384x64_1_0_0_1_n_n.lhsIdx_val_of_single rfl i q
private theorem ref256_rhs_0 (i : Cert.ReferenceIdeal.S16384x64.Idx) (q : Cert.ReferenceIdeal.dot_S16384x256_S256x64_S16384x64_1_0_0_1_n_n.contr.Idx) :
    (Cert.ReferenceIdeal.dot_S16384x256_S256x64_S16384x64_1_0_0_1_n_n.rhsIdx i q 0).val = (q ⟨0, by decide⟩).val :=
  Cert.ReferenceIdeal.dot_S16384x256_S256x64_S16384x64_1_0_0_1_n_n.rhsIdx_val_of_single rfl i q
private theorem ref256_rhs_1 (i : Cert.ReferenceIdeal.S16384x64.Idx) (q : Cert.ReferenceIdeal.dot_S16384x256_S256x64_S16384x64_1_0_0_1_n_n.contr.Idx) :
    (Cert.ReferenceIdeal.dot_S16384x256_S256x64_S16384x64_1_0_0_1_n_n.rhsIdx i q 1).val = (i 1).val := by
  unfold DotDims.rhsIdx
  rw [dif_neg (show ¬(1 : Fin Cert.ReferenceIdeal.S256x64.rank) ∈ Cert.ReferenceIdeal.dot_S16384x256_S256x64_S16384x64_1_0_0_1_n_n.rhsBatch by decide), dif_pos (show (1 : Fin Cert.ReferenceIdeal.S256x64.rank) ∈ Cert.ReferenceIdeal.dot_S16384x256_S256x64_S16384x64_1_0_0_1_n_n.rhsNonContracting by decide)]
  rfl

private theorem ker512_lhs_0 (i : Cert.KernelIdeal.S2048x256.Idx) (q : Cert.KernelIdeal.dot_S2048x512_S512x256_S2048x256_1_0_0_1_n_n.contr.Idx) :
    (Cert.KernelIdeal.dot_S2048x512_S512x256_S2048x256_1_0_0_1_n_n.lhsIdx i q 0).val = (i 0).val := by
  unfold DotDims.lhsIdx
  rw [dif_neg (show ¬(0 : Fin Cert.KernelIdeal.S2048x512.rank) ∈ Cert.KernelIdeal.dot_S2048x512_S512x256_S2048x256_1_0_0_1_n_n.lhsBatch by decide), dif_pos (show (0 : Fin Cert.KernelIdeal.S2048x512.rank) ∈ Cert.KernelIdeal.dot_S2048x512_S512x256_S2048x256_1_0_0_1_n_n.lhsNonContracting by decide)]
  rfl
private theorem ker512_lhs_1 (i : Cert.KernelIdeal.S2048x256.Idx) (q : Cert.KernelIdeal.dot_S2048x512_S512x256_S2048x256_1_0_0_1_n_n.contr.Idx) :
    (Cert.KernelIdeal.dot_S2048x512_S512x256_S2048x256_1_0_0_1_n_n.lhsIdx i q 1).val = (q ⟨0, by decide⟩).val :=
  Cert.KernelIdeal.dot_S2048x512_S512x256_S2048x256_1_0_0_1_n_n.lhsIdx_val_of_single rfl i q
private theorem ker512_rhs_0 (i : Cert.KernelIdeal.S2048x256.Idx) (q : Cert.KernelIdeal.dot_S2048x512_S512x256_S2048x256_1_0_0_1_n_n.contr.Idx) :
    (Cert.KernelIdeal.dot_S2048x512_S512x256_S2048x256_1_0_0_1_n_n.rhsIdx i q 0).val = (q ⟨0, by decide⟩).val :=
  Cert.KernelIdeal.dot_S2048x512_S512x256_S2048x256_1_0_0_1_n_n.rhsIdx_val_of_single rfl i q
private theorem ker512_rhs_1 (i : Cert.KernelIdeal.S2048x256.Idx) (q : Cert.KernelIdeal.dot_S2048x512_S512x256_S2048x256_1_0_0_1_n_n.contr.Idx) :
    (Cert.KernelIdeal.dot_S2048x512_S512x256_S2048x256_1_0_0_1_n_n.rhsIdx i q 1).val = (i 1).val := by
  unfold DotDims.rhsIdx
  rw [dif_neg (show ¬(1 : Fin Cert.KernelIdeal.S512x256.rank) ∈ Cert.KernelIdeal.dot_S2048x512_S512x256_S2048x256_1_0_0_1_n_n.rhsBatch by decide), dif_pos (show (1 : Fin Cert.KernelIdeal.S512x256.rank) ∈ Cert.KernelIdeal.dot_S2048x512_S512x256_S2048x256_1_0_0_1_n_n.rhsNonContracting by decide)]
  rfl

private theorem ker256_lhs_0 (i : Cert.KernelIdeal.S2048x64.Idx) (q : Cert.KernelIdeal.dot_S2048x256_S256x64_S2048x64_1_0_0_1_n_n.contr.Idx) :
    (Cert.KernelIdeal.dot_S2048x256_S256x64_S2048x64_1_0_0_1_n_n.lhsIdx i q 0).val = (i 0).val := by
  unfold DotDims.lhsIdx
  rw [dif_neg (show ¬(0 : Fin Cert.KernelIdeal.S2048x256.rank) ∈ Cert.KernelIdeal.dot_S2048x256_S256x64_S2048x64_1_0_0_1_n_n.lhsBatch by decide), dif_pos (show (0 : Fin Cert.KernelIdeal.S2048x256.rank) ∈ Cert.KernelIdeal.dot_S2048x256_S256x64_S2048x64_1_0_0_1_n_n.lhsNonContracting by decide)]
  rfl
private theorem ker256_lhs_1 (i : Cert.KernelIdeal.S2048x64.Idx) (q : Cert.KernelIdeal.dot_S2048x256_S256x64_S2048x64_1_0_0_1_n_n.contr.Idx) :
    (Cert.KernelIdeal.dot_S2048x256_S256x64_S2048x64_1_0_0_1_n_n.lhsIdx i q 1).val = (q ⟨0, by decide⟩).val :=
  Cert.KernelIdeal.dot_S2048x256_S256x64_S2048x64_1_0_0_1_n_n.lhsIdx_val_of_single rfl i q
private theorem ker256_rhs_0 (i : Cert.KernelIdeal.S2048x64.Idx) (q : Cert.KernelIdeal.dot_S2048x256_S256x64_S2048x64_1_0_0_1_n_n.contr.Idx) :
    (Cert.KernelIdeal.dot_S2048x256_S256x64_S2048x64_1_0_0_1_n_n.rhsIdx i q 0).val = (q ⟨0, by decide⟩).val :=
  Cert.KernelIdeal.dot_S2048x256_S256x64_S2048x64_1_0_0_1_n_n.rhsIdx_val_of_single rfl i q
private theorem ker256_rhs_1 (i : Cert.KernelIdeal.S2048x64.Idx) (q : Cert.KernelIdeal.dot_S2048x256_S256x64_S2048x64_1_0_0_1_n_n.contr.Idx) :
    (Cert.KernelIdeal.dot_S2048x256_S256x64_S2048x64_1_0_0_1_n_n.rhsIdx i q 1).val = (i 1).val := by
  unfold DotDims.rhsIdx
  rw [dif_neg (show ¬(1 : Fin Cert.KernelIdeal.S256x64.rank) ∈ Cert.KernelIdeal.dot_S2048x256_S256x64_S2048x64_1_0_0_1_n_n.rhsBatch by decide), dif_pos (show (1 : Fin Cert.KernelIdeal.S256x64.rank) ∈ Cert.KernelIdeal.dot_S2048x256_S256x64_S2048x64_1_0_0_1_n_n.rhsNonContracting by decide)]
  rfl

/-- The reference's first projection at entry `(i, j)`. -/
theorem refProj512_apply (x : Arr Ideal Cert.ReferenceIdeal.S16384x512) (s : Arr Ideal Cert.ReferenceIdeal.S16384x1) (w : Arr Ideal Cert.ReferenceIdeal.S512x256)
    (i : Fin 16384) (j : Fin 256) :
    refProj512 (F := Ideal) x s w (ix2 i j) = ∑ k : Fin 512, (x (ix2 i k) * s (ix2 i (0 : Fin 1))) * w (ix2 k j) := by
  unfold refProj512
  simp only [Host.dotGeneral]
  rw [Ideal.dotGeneral_apply]
  rw [← Equiv.sum_comp (contrEquiv1 Cert.ReferenceIdeal.dot_S16384x512_S512x256_S16384x256_1_0_0_1_n_n 512 rfl rfl).symm]
  refine Finset.sum_congr rfl fun k _ => ?_
  have hk := contrEquiv1_symm_val Cert.ReferenceIdeal.dot_S16384x512_S512x256_S16384x256_1_0_0_1_n_n 512 rfl rfl k
  have el : Cert.ReferenceIdeal.dot_S16384x512_S512x256_S16384x256_1_0_0_1_n_n.lhsIdx (ix2 i j) ((contrEquiv1 Cert.ReferenceIdeal.dot_S16384x512_S512x256_S16384x256_1_0_0_1_n_n 512 rfl rfl).symm k) = ix2 i k := funext fun a => Fin.ext (by
    match a with
    | ⟨0, _⟩ => exact ref512_lhs_0 _ _
    | ⟨1, _⟩ => exact (ref512_lhs_1 _ _).trans hk)
  have er : Cert.ReferenceIdeal.dot_S16384x512_S512x256_S16384x256_1_0_0_1_n_n.rhsIdx (ix2 i j) ((contrEquiv1 Cert.ReferenceIdeal.dot_S16384x512_S512x256_S16384x256_1_0_0_1_n_n 512 rfl rfl).symm k) = ix2 k j := funext fun a => Fin.ext (by
    match a with
    | ⟨0, _⟩ => exact (ref512_rhs_0 _ _).trans hk
    | ⟨1, _⟩ => exact ref512_rhs_1 _ _)
  rw [el, er, mulf_apply]
  rw [broadcastInDim_apply _ Cert.ReferenceIdeal.Gen.bcast_S16384x1_S16384x512_0_1 s (ix2 i k) (ix2 i (0 : Fin 1)) (fun a => match a with
    | ⟨0, _⟩ => by show i.val = if (16384 : Nat) = 1 then 0 else i.val; rw [if_neg (by decide)]
    | ⟨1, _⟩ => by show 0 = if (1 : Nat) = 1 then 0 else k.val; rw [if_pos rfl])]

/-- The reference's later projections at entry `(i, j)`. -/
theorem refProj256_apply (x : Arr Ideal Cert.ReferenceIdeal.S16384x256) (s : Arr Ideal Cert.ReferenceIdeal.S16384x1) (w : Arr Ideal Cert.ReferenceIdeal.S256x64)
    (i : Fin 16384) (j : Fin 64) :
    refProj256 (F := Ideal) x s w (ix2 i j) = ∑ k : Fin 256, (x (ix2 i k) * s (ix2 i (0 : Fin 1))) * w (ix2 k j) := by
  unfold refProj256
  simp only [Host.dotGeneral]
  rw [Ideal.dotGeneral_apply]
  rw [← Equiv.sum_comp (contrEquiv1 Cert.ReferenceIdeal.dot_S16384x256_S256x64_S16384x64_1_0_0_1_n_n 256 rfl rfl).symm]
  refine Finset.sum_congr rfl fun k _ => ?_
  have hk := contrEquiv1_symm_val Cert.ReferenceIdeal.dot_S16384x256_S256x64_S16384x64_1_0_0_1_n_n 256 rfl rfl k
  have el : Cert.ReferenceIdeal.dot_S16384x256_S256x64_S16384x64_1_0_0_1_n_n.lhsIdx (ix2 i j) ((contrEquiv1 Cert.ReferenceIdeal.dot_S16384x256_S256x64_S16384x64_1_0_0_1_n_n 256 rfl rfl).symm k) = ix2 i k := funext fun a => Fin.ext (by
    match a with
    | ⟨0, _⟩ => exact ref256_lhs_0 _ _
    | ⟨1, _⟩ => exact (ref256_lhs_1 _ _).trans hk)
  have er : Cert.ReferenceIdeal.dot_S16384x256_S256x64_S16384x64_1_0_0_1_n_n.rhsIdx (ix2 i j) ((contrEquiv1 Cert.ReferenceIdeal.dot_S16384x256_S256x64_S16384x64_1_0_0_1_n_n 256 rfl rfl).symm k) = ix2 k j := funext fun a => Fin.ext (by
    match a with
    | ⟨0, _⟩ => exact (ref256_rhs_0 _ _).trans hk
    | ⟨1, _⟩ => exact ref256_rhs_1 _ _)
  rw [el, er, mulf_apply]
  rw [broadcastInDim_apply _ Cert.ReferenceIdeal.Gen.bcast_S16384x1_S16384x256_0_1 s (ix2 i k) (ix2 i (0 : Fin 1)) (fun a => match a with
    | ⟨0, _⟩ => by show i.val = if (16384 : Nat) = 1 then 0 else i.val; rw [if_neg (by decide)]
    | ⟨1, _⟩ => by show 0 = if (1 : Nat) = 1 then 0 else k.val; rw [if_pos rfl])]

/-- The first projection kernel's stored block at entry `(p, q)`, from the blocks it loaded. -/
theorem k0_pay1_apply (x0 : Vec Ideal Cert.KernelIdeal.S2048x512 .f32) (x1 : Vec Ideal Cert.KernelIdeal.S2048x1 .f32) (x2 : Vec Ideal Cert.KernelIdeal.S512x256 .f32)
    (p : Fin 2048) (q : Fin 256) :
    Cert.KernelIdeal.Gen.k0_pay1 (F := Ideal) x0 x1 x2 (ix2 p q) = ∑ k : Fin 512, (x0 (ix2 p k) * x1 (ix2 p (0 : Fin 1))) * x2 (ix2 k q) := by
  unfold Cert.KernelIdeal.Gen.k0_pay1
  refine (Ideal.matmul_constant_zero_apply Cert.KernelIdeal.dot_S2048x512_S512x256_S2048x256_1_0_0_1_n_n none _ _ (ix2 p q)).trans ?_
  rw [← Equiv.sum_comp (contrEquiv1 Cert.KernelIdeal.dot_S2048x512_S512x256_S2048x256_1_0_0_1_n_n 512 rfl rfl).symm]
  refine Finset.sum_congr rfl fun k _ => ?_
  have hk := contrEquiv1_symm_val Cert.KernelIdeal.dot_S2048x512_S512x256_S2048x256_1_0_0_1_n_n 512 rfl rfl k
  have el : Cert.KernelIdeal.dot_S2048x512_S512x256_S2048x256_1_0_0_1_n_n.lhsIdx (ix2 p q) ((contrEquiv1 Cert.KernelIdeal.dot_S2048x512_S512x256_S2048x256_1_0_0_1_n_n 512 rfl rfl).symm k) = ix2 p k := funext fun a => Fin.ext (by
    match a with
    | ⟨0, _⟩ => exact ker512_lhs_0 _ _
    | ⟨1, _⟩ => exact (ker512_lhs_1 _ _).trans hk)
  have er : Cert.KernelIdeal.dot_S2048x512_S512x256_S2048x256_1_0_0_1_n_n.rhsIdx (ix2 p q) ((contrEquiv1 Cert.KernelIdeal.dot_S2048x512_S512x256_S2048x256_1_0_0_1_n_n 512 rfl rfl).symm k) = ix2 k q := funext fun a => Fin.ext (by
    match a with
    | ⟨0, _⟩ => exact (ker512_rhs_0 _ _).trans hk
    | ⟨1, _⟩ => exact ker512_rhs_1 _ _)
  rw [el, er, truncf_apply, truncf_apply, mulf_apply, shapeCast_self x1 _]
  rw [broadcastTo_apply x1 _ (ix2 p k) (ix2 p (0 : Fin 1)) (fun a => match a with
    | ⟨0, _⟩ => by show p.val = if (2048 : Nat) = 1 then 0 else p.val; rw [if_neg (by decide)]
    | ⟨1, _⟩ => by show 0 = if (1 : Nat) = 1 then 0 else k.val; rw [if_pos rfl])]

/-- The second projection kernel's stored block at entry `(p, q)`. -/
theorem k1_pay1_apply (x0 : Vec Ideal Cert.KernelIdeal.S2048x256 .f32) (x1 : Vec Ideal Cert.KernelIdeal.S2048x1 .f32) (x2 : Vec Ideal Cert.KernelIdeal.S256x64 .f32)
    (p : Fin 2048) (q : Fin 64) :
    Cert.KernelIdeal.Gen.k1_pay1 (F := Ideal) x0 x1 x2 (ix2 p q) = ∑ k : Fin 256, (x0 (ix2 p k) * x1 (ix2 p (0 : Fin 1))) * x2 (ix2 k q) := by
  unfold Cert.KernelIdeal.Gen.k1_pay1
  refine (Ideal.matmul_constant_zero_apply Cert.KernelIdeal.dot_S2048x256_S256x64_S2048x64_1_0_0_1_n_n none _ _ (ix2 p q)).trans ?_
  rw [← Equiv.sum_comp (contrEquiv1 Cert.KernelIdeal.dot_S2048x256_S256x64_S2048x64_1_0_0_1_n_n 256 rfl rfl).symm]
  refine Finset.sum_congr rfl fun k _ => ?_
  have hk := contrEquiv1_symm_val Cert.KernelIdeal.dot_S2048x256_S256x64_S2048x64_1_0_0_1_n_n 256 rfl rfl k
  have el : Cert.KernelIdeal.dot_S2048x256_S256x64_S2048x64_1_0_0_1_n_n.lhsIdx (ix2 p q) ((contrEquiv1 Cert.KernelIdeal.dot_S2048x256_S256x64_S2048x64_1_0_0_1_n_n 256 rfl rfl).symm k) = ix2 p k := funext fun a => Fin.ext (by
    match a with
    | ⟨0, _⟩ => exact ker256_lhs_0 _ _
    | ⟨1, _⟩ => exact (ker256_lhs_1 _ _).trans hk)
  have er : Cert.KernelIdeal.dot_S2048x256_S256x64_S2048x64_1_0_0_1_n_n.rhsIdx (ix2 p q) ((contrEquiv1 Cert.KernelIdeal.dot_S2048x256_S256x64_S2048x64_1_0_0_1_n_n 256 rfl rfl).symm k) = ix2 k q := funext fun a => Fin.ext (by
    match a with
    | ⟨0, _⟩ => exact (ker256_rhs_0 _ _).trans hk
    | ⟨1, _⟩ => exact ker256_rhs_1 _ _)
  rw [el, er, truncf_apply, truncf_apply, mulf_apply, shapeCast_self x0 _, shapeCast_self x1 _]
  rw [broadcastTo_apply x1 _ (ix2 p k) (ix2 p (0 : Fin 1)) (fun a => match a with
    | ⟨0, _⟩ => by show p.val = if (2048 : Nat) = 1 then 0 else p.val; rw [if_neg (by decide)]
    | ⟨1, _⟩ => by show 0 = if (1 : Nat) = 1 then 0 else k.val; rw [if_pos rfl])]

/-- The third projection kernel's stored block at entry `(p, q)`. -/
theorem k2_pay1_apply (x0 : Vec Ideal Cert.KernelIdeal.S2048x256 .f32) (x1 : Vec Ideal Cert.KernelIdeal.S2048x1 .f32) (x2 : Vec Ideal Cert.KernelIdeal.S256x64 .f32)
    (p : Fin 2048) (q : Fin 64) :
    Cert.KernelIdeal.Gen.k2_pay1 (F := Ideal) x0 x1 x2 (ix2 p q) = ∑ k : Fin 256, (x0 (ix2 p k) * x1 (ix2 p (0 : Fin 1))) * x2 (ix2 k q) := by
  unfold Cert.KernelIdeal.Gen.k2_pay1
  refine (Ideal.matmul_constant_zero_apply Cert.KernelIdeal.dot_S2048x256_S256x64_S2048x64_1_0_0_1_n_n none _ _ (ix2 p q)).trans ?_
  rw [← Equiv.sum_comp (contrEquiv1 Cert.KernelIdeal.dot_S2048x256_S256x64_S2048x64_1_0_0_1_n_n 256 rfl rfl).symm]
  refine Finset.sum_congr rfl fun k _ => ?_
  have hk := contrEquiv1_symm_val Cert.KernelIdeal.dot_S2048x256_S256x64_S2048x64_1_0_0_1_n_n 256 rfl rfl k
  have el : Cert.KernelIdeal.dot_S2048x256_S256x64_S2048x64_1_0_0_1_n_n.lhsIdx (ix2 p q) ((contrEquiv1 Cert.KernelIdeal.dot_S2048x256_S256x64_S2048x64_1_0_0_1_n_n 256 rfl rfl).symm k) = ix2 p k := funext fun a => Fin.ext (by
    match a with
    | ⟨0, _⟩ => exact ker256_lhs_0 _ _
    | ⟨1, _⟩ => exact (ker256_lhs_1 _ _).trans hk)
  have er : Cert.KernelIdeal.dot_S2048x256_S256x64_S2048x64_1_0_0_1_n_n.rhsIdx (ix2 p q) ((contrEquiv1 Cert.KernelIdeal.dot_S2048x256_S256x64_S2048x64_1_0_0_1_n_n 256 rfl rfl).symm k) = ix2 k q := funext fun a => Fin.ext (by
    match a with
    | ⟨0, _⟩ => exact (ker256_rhs_0 _ _).trans hk
    | ⟨1, _⟩ => exact ker256_rhs_1 _ _)
  rw [el, er, truncf_apply, truncf_apply, mulf_apply, shapeCast_self x0 _, shapeCast_self x1 _]
  rw [broadcastTo_apply x1 _ (ix2 p k) (ix2 p (0 : Fin 1)) (fun a => match a with
    | ⟨0, _⟩ => by show p.val = if (2048 : Nat) = 1 then 0 else p.val; rw [if_neg (by decide)]
    | ⟨1, _⟩ => by show 0 = if (1 : Nat) = 1 then 0 else k.val; rw [if_pos rfl])]

end Cert.ProjMath

end
-- ==== Proof.Final0.lean ====
/-
  Region 0's value at the ideal instance: the array its output window leaves is the reference's first projection `(x * column) @ w` of the arrays it found.
-/
import proofs.«133462_j79267916415284_1_alg».proof.Proof.Body0
import proofs.«133462_j79267916415284_1_alg».proof.Proof.Stages
import proofs.«133462_j79267916415284_1_alg».proof.Proof.ProjMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Stages

-- the TensorCore's buffer contents when the region is entered, at the ideal instance
variable (V : (c : Dev nD) → (b : Ref sig .tc) → Buf (Elt Ideal) ((c : Thread nD τ).loc b))

/-! ## The pieces of the argument -/

/-- The offsets of an access to a whole staging buffer are all zero. -/
private theorem zero_offsets0 : (![0, 0] : Fin 2 → Nat) = fun _ => 0 := funext fun a => by fin_cases a <;> rfl

/-- The index maps over the grid: at point `t` the rows, the column and the output are at block `(t, 0)`, the weights at
    block `(0, 0)`. -/
private theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the rows block at point `t` is entry `(2048 t + p, k)` of the features. -/
private theorem rows_block0 (c : Dev nD) (t : Fin cfg0.N) (p : Fin 2048) (k : Fin 512) (i : Fin 16384)
    (hi : i.val = t.val * 2048 + p.val) :
    (iblk0 V c 0 t : Vec Ideal S2048x512 .f32) (ix2 p k) = (V c main_arg0 : Arr Ideal S16384x512) (ix2 i k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 2048 + 1 * p.val = i.val; omega
  | ⟨1, _⟩ => show win0_0.index t (1 : Fin 2) * 512 + 1 * k.val = k.val; omega

/-- Entry `(p, 0)` of the column block at point `t` is entry `(2048 t + p, 0)` of the column. -/
private theorem column_block0 (c : Dev nD) (t : Fin cfg0.N) (p : Fin 2048) (i : Fin 16384)
    (hi : i.val = t.val * 2048 + p.val) :
    (iblk0 V c 1 t : Vec Ideal S2048x1 .f32) (ix2 p (0 : Fin 1)) = (V c main_v15 : Arr Ideal S16384x1) (ix2 i (0 : Fin 1)) := by
  obtain ⟨-, -, e0, e1, -⟩ := index_facts0 t
  unfold iblk0
  rw [View.read_apply]
  show V c main_v15 _ = V c main_v15 _
  congr 1
  funext a
  apply Fin.ext
  match a with
  | ⟨0, _⟩ => show win0_1.index t (0 : Fin 2) * 2048 + 1 * p.val = i.val; omega
  | ⟨1, _⟩ => show win0_1.index t (1 : Fin 2) * 1 + 1 * (0 : Fin 1).val = (0 : Fin 1).val; omega

/-- The weights block at every point is the whole weights. -/
private theorem weights_block0 (c : Dev nD) (t : Fin cfg0.N) (k : Fin 512) (q : Fin 256) :
    (iblk0 V c 2 t : Vec Ideal S512x256 .f32) (ix2 k q) = (V c main_arg4 : Arr Ideal S512x256) (ix2 k q) := by
  obtain ⟨-, -, -, -, e0, e1, -⟩ := index_facts0 t
  unfold iblk0
  rw [View.read_apply]
  show V c main_arg4 _ = V c main_arg4 _
  congr 1
  funext a
  apply Fin.ext
  match a with
  | ⟨0, _⟩ => show win0_2.index t (0 : Fin 2) * 512 + 1 * k.val = k.val; omega
  | ⟨1, _⟩ => show win0_2.index t (1 : Fin 2) * 256 + 1 * q.val = q.val; omega

/-- What point `t` computes at entry `y` of its block is the reference's projection at the entry `i` of the array that
    sits 2048 t rows further down: both are the sum over the contracted feature of `(x * s) * w`, term by term the same. -/
private theorem block_entry0 (c : Dev nD) (t : Fin cfg0.N) (y : S2048x256.Idx) (i : S16384x256.Idx)
    (h0 : (i 0).val = t.val * 2048 + (y 0).val) (h1 : (i 1).val = (y 1).val) :
    k0_pay1 (F := Ideal) (iblk0 V c 0 t) (iblk0 V c 1 t) (iblk0 V c 2 t) y
      = refProj512 (F := Ideal) (V c main_arg0) (V c main_v15) (V c main_arg4) i := by
  obtain ⟨p, q, rfl⟩ : ∃ (p : Fin 2048) (q : Fin 256), y = ix2 p q := ⟨y 0, y 1, eq_ix2 y⟩
  obtain ⟨r, q', rfl⟩ : ∃ (r : Fin 16384) (q' : Fin 256), i = ix2 r q' := ⟨i 0, i 1, eq_ix2 i⟩
  have hr : r.val = t.val * 2048 + p.val := h0
  obtain rfl : q' = q := Fin.ext h1
  refine (Cert.ProjMath.k0_pay1_apply (iblk0 V c 0 t) (iblk0 V c 1 t) (iblk0 V c 2 t) p q').trans ?_
  refine Eq.trans ?_ (Cert.ProjMath.refProj512_apply (V c main_arg0) (V c main_v15) (V c main_arg4) r q').symm
  refine Finset.sum_congr rfl fun k _ => ?_
  rw [rows_block0 V c t p k r hr, column_block0 V c t p r hr, weights_block0 V c t k q']

/-! ## From blocks to the array -/

/-- What point `t` writes back is block `t` of the reference's projection. -/
private theorem flushed_eq0 (c : Dev nD) (t : Fin cfg0.N) :
    (dat0 (F := Ideal) V c).flushed 3 t
      = ((cfg0.win 3).blk t).view.read (Elt Ideal) (refProj512 (F := Ideal) (V c main_arg0) (V c main_v15) (V c main_arg4)) := by
  show (cfg0.win 3).cut (grid0.coords t) ((dat0 (F := Ideal) V c).after 3 t) = _
  rw [after0_3]
  unfold out0_3
  rw [View.canon_unit_zero zero_offsets0]
  simp only [View.ld_unit_zero (S := S2048x512) zero_offsets0, View.ld_unit_zero (S := S2048x1) zero_offsets0,
    View.ld_unit_zero (S := S512x256) zero_offsets0]
  obtain ⟨-, -, -, -, -, -, e0, e1⟩ := index_facts0 t
  funext j
  rw [View.read_apply]
  refine block_entry0 V c t ((cfg0.win 3).xinj (grid0.coords t) j) (((cfg0.win 3).blk t).view.emb j) ?_ ?_
  · show win0_3.index t (0 : Fin 2) * 2048 + 1 * (j 0).val = t.val * 2048 + (j 0).val; omega
  · show win0_3.index t (1 : Fin 2) * 256 + 1 * (j 1).val = (j 1).val; omega

/-- An entry of the array is in point `t`'s block iff each coordinate is in the block's range on its axis. -/
private theorem mem_block0 (t : Fin cfg0.N) (i : S16384x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v17).slice (win0_3.rect t)).set ↔ _
  rw [View.set_slice_whole, Rect.mem_set_unit]
  exact Iff.rfl

/-- The eight blocks tile the array: row `r` is in the block of point `r / 2048`, and every point writes back. -/
private theorem cover0 (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ : ∃ t : Fin cfg0.N, t.val = (i 0).val / 2048 :=
    ⟨⟨(i 0).val / 2048, by rw [show cfg0.N = 8 from N_0]; omega⟩, rfl⟩
  obtain ⟨-, -, -, -, -, -, e0, e1⟩ := index_facts0 t
  refine ⟨t, flush0_3 t, ?_⟩
  rw [mem_block0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-! ## The region's array -/

/-- Region 0's output array after the region's last write-back is the reference's projection of the arrays the region
    found: every grid point writes back the block of 2048 rows it computed, the blocks tile the array, and block `t`,
    entry by entry, is the sum over the contracted feature of `(x[2048 t + p, k] * s[2048 t + p, 0]) * w[k, q]`. -/
theorem final0 (c : Dev nD) :
    (dat0 (F := Ideal) V c).arrAt 3 cfg0.N = refProj512 (F := Ideal) (V c main_arg0) (V c main_v15) (V c main_arg4) := by
  exact (dat0 (F := Ideal) V c).arrAt_eq_of_cover 3 (refProj512 (F := Ideal) (V c main_arg0) (V c main_v15) (V c main_arg4))
    (fun t _ => flushed_eq0 V c t) cover0

end Cert.KernelIdeal.Final

end
-- ==== Proof.Final1.lean ====
/-
  Region 1's value at the ideal instance: the array its output window leaves is the reference's projection `(h * column) @ w` of the hidden layer of the arrays it found.
-/
import proofs.«133462_j79267916415284_1_alg».proof.Proof.Body1
import proofs.«133462_j79267916415284_1_alg».proof.Proof.Stages
import proofs.«133462_j79267916415284_1_alg».proof.Proof.ProjMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Stages

-- the TensorCore's buffer contents when the region is entered, at the ideal instance
variable (V : (c : Dev nD) → (b : Ref sig .tc) → Buf (Elt Ideal) ((c : Thread nD τ).loc b))

/-! ## The pieces of the argument -/

/-- The offsets of an access to a whole staging buffer are all zero. -/
private theorem zero_offsets1 : (![0, 0] : Fin 2 → Nat) = fun _ => 0 := funext fun a => by fin_cases a <;> rfl

/-- The index maps over the grid: at point `t` the rows, the column and the output are at block `(t, 0)`, the weights at
    block `(0, 0)`. -/
private theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, k)` of the rows block at point `t` is entry `(2048 t + p, k)` of the hidden layer. -/
private theorem rows_block1 (c : Dev nD) (t : Fin cfg1.N) (p : Fin 2048) (k : Fin 256) (i : Fin 16384)
    (hi : i.val = t.val * 2048 + p.val) :
    (iblk1 V c 0 t : Vec Ideal S2048x256 .f32) (ix2 p k) = (V c main_v33 : Arr Ideal S16384x256) (ix2 i k) := by
  obtain ⟨e0, e1, -⟩ := index_facts1 t
  unfold iblk1
  rw [View.read_apply]
  show V c main_v33 _ = V c main_v33 _
  congr 1
  funext a
  apply Fin.ext
  match a with
  | ⟨0, _⟩ => show win1_0.index t (0 : Fin 2) * 2048 + 1 * p.val = i.val; omega
  | ⟨1, _⟩ => show win1_0.index t (1 : Fin 2) * 256 + 1 * k.val = k.val; omega

/-- Entry `(p, 0)` of the column block at point `t` is entry `(2048 t + p, 0)` of the column. -/
private theorem column_block1 (c : Dev nD) (t : Fin cfg1.N) (p : Fin 2048) (i : Fin 16384)
    (hi : i.val = t.val * 2048 + p.val) :
    (iblk1 V c 1 t : Vec Ideal S2048x1 .f32) (ix2 p (0 : Fin 1)) = (V c main_v15 : Arr Ideal S16384x1) (ix2 i (0 : Fin 1)) := by
  obtain ⟨-, -, e0, e1, -⟩ := index_facts1 t
  unfold iblk1
  rw [View.read_apply]
  show V c main_v15 _ = V c main_v15 _
  congr 1
  funext a
  apply Fin.ext
  match a with
  | ⟨0, _⟩ => show win1_1.index t (0 : Fin 2) * 2048 + 1 * p.val = i.val; omega
  | ⟨1, _⟩ => show win1_1.index t (1 : Fin 2) * 1 + 1 * (0 : Fin 1).val = (0 : Fin 1).val; omega

/-- The weights block at every point is the whole weights. -/
private theorem weights_block1 (c : Dev nD) (t : Fin cfg1.N) (k : Fin 256) (q : Fin 64) :
    (iblk1 V c 2 t : Vec Ideal S256x64 .f32) (ix2 k q) = (V c main_arg6 : Arr Ideal S256x64) (ix2 k q) := by
  obtain ⟨-, -, -, -, e0, e1, -⟩ := index_facts1 t
  unfold iblk1
  rw [View.read_apply]
  show V c main_arg6 _ = V c main_arg6 _
  congr 1
  funext a
  apply Fin.ext
  match a with
  | ⟨0, _⟩ => show win1_2.index t (0 : Fin 2) * 256 + 1 * k.val = k.val; omega
  | ⟨1, _⟩ => show win1_2.index t (1 : Fin 2) * 64 + 1 * q.val = q.val; omega

/-- What point `t` computes at entry `y` of its block is the reference's projection at the entry `i` of the array that
    sits 2048 t rows further down: both are the sum over the contracted feature of `(x * s) * w`, term by term the same. -/
private theorem block_entry1 (c : Dev nD) (t : Fin cfg1.N) (y : S2048x64.Idx) (i : S16384x64.Idx)
    (h0 : (i 0).val = t.val * 2048 + (y 0).val) (h1 : (i 1).val = (y 1).val) :
    k1_pay1 (F := Ideal) (iblk1 V c 0 t) (iblk1 V c 1 t) (iblk1 V c 2 t) y
      = refProj256 (F := Ideal) (V c main_v33) (V c main_v15) (V c main_arg6) i := by
  obtain ⟨p, q, rfl⟩ : ∃ (p : Fin 2048) (q : Fin 64), y = ix2 p q := ⟨y 0, y 1, eq_ix2 y⟩
  obtain ⟨r, q', rfl⟩ : ∃ (r : Fin 16384) (q' : Fin 64), i = ix2 r q' := ⟨i 0, i 1, eq_ix2 i⟩
  have hr : r.val = t.val * 2048 + p.val := h0
  obtain rfl : q' = q := Fin.ext h1
  refine (Cert.ProjMath.k1_pay1_apply (iblk1 V c 0 t) (iblk1 V c 1 t) (iblk1 V c 2 t) p q').trans ?_
  refine Eq.trans ?_ (Cert.ProjMath.refProj256_apply (V c main_v33) (V c main_v15) (V c main_arg6) r q').symm
  refine Finset.sum_congr rfl fun k _ => ?_
  rw [rows_block1 V c t p k r hr, column_block1 V c t p r hr, weights_block1 V c t k q']

/-! ## From blocks to the array -/

/-- What point `t` writes back is block `t` of the reference's projection. -/
private theorem flushed_eq1 (c : Dev nD) (t : Fin cfg1.N) :
    (dat1 (F := Ideal) V c).flushed 3 t
      = ((cfg1.win 3).blk t).view.read (Elt Ideal) (refProj256 (F := Ideal) (V c main_v33) (V c main_v15) (V c main_arg6)) := by
  show (cfg1.win 3).cut (grid1.coords t) ((dat1 (F := Ideal) V c).after 3 t) = _
  rw [after1_3]
  unfold out1_3
  rw [View.canon_unit_zero zero_offsets1]
  simp only [View.ld_unit_zero (S := S2048x256) zero_offsets1, View.ld_unit_zero (S := S2048x1) zero_offsets1,
    View.ld_unit_zero (S := S256x64) zero_offsets1]
  obtain ⟨-, -, -, -, -, -, e0, e1⟩ := index_facts1 t
  funext j
  rw [View.read_apply]
  refine block_entry1 V c t ((cfg1.win 3).xinj (grid1.coords t) j) (((cfg1.win 3).blk t).view.emb j) ?_ ?_
  · show win1_3.index t (0 : Fin 2) * 2048 + 1 * (j 0).val = t.val * 2048 + (j 0).val; omega
  · show win1_3.index t (1 : Fin 2) * 64 + 1 * (j 1).val = (j 1).val; omega

/-- An entry of the array is in point `t`'s block iff each coordinate is in the block's range on its axis. -/
private theorem mem_block1 (t : Fin cfg1.N) (i : S16384x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v34).slice (win1_3.rect t)).set ↔ _
  rw [View.set_slice_whole, Rect.mem_set_unit]
  exact Iff.rfl

/-- The eight blocks tile the array: row `r` is in the block of point `r / 2048`, and every point writes back. -/
private theorem cover1 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  obtain ⟨t, ht⟩ : ∃ t : Fin cfg1.N, t.val = (i 0).val / 2048 :=
    ⟨⟨(i 0).val / 2048, by rw [show cfg1.N = 8 from N_1]; omega⟩, rfl⟩
  obtain ⟨-, -, -, -, -, -, e0, e1⟩ := index_facts1 t
  refine ⟨t, flush1_3 t, ?_⟩
  rw [mem_block1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 64 ≤ (i 1).val ∧ (i 1).val < win1_3.index t (1 : Fin 2) * 64 + 64; omega

/-! ## The region's array -/

/-- Region 1's output array after the region's last write-back is the reference's projection of the arrays the region
    found: every grid point writes back the block of 2048 rows it computed, the blocks tile the array, and block `t`,
    entry by entry, is the sum over the contracted feature of `(x[2048 t + p, k] * s[2048 t + p, 0]) * w[k, q]`. -/
theorem final1 (c : Dev nD) :
    (dat1 (F := Ideal) V c).arrAt 3 cfg1.N = refProj256 (F := Ideal) (V c main_v33) (V c main_v15) (V c main_arg6) := by
  exact (dat1 (F := Ideal) V c).arrAt_eq_of_cover 3 (refProj256 (F := Ideal) (V c main_v33) (V c main_v15) (V c main_arg6))
    (fun t _ => flushed_eq1 V c t) cover1

end Cert.KernelIdeal.Final

end
-- ==== Proof.Final2.lean ====
/-
  Region 2's value at the ideal instance: the array its output window leaves is the reference's projection `(h * column) @ w` of the hidden layer of the arrays it found.
-/
import proofs.«133462_j79267916415284_1_alg».proof.Proof.Body2
import proofs.«133462_j79267916415284_1_alg».proof.Proof.Stages
import proofs.«133462_j79267916415284_1_alg».proof.Proof.ProjMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Stages

-- the TensorCore's buffer contents when the region is entered, at the ideal instance
variable (V : (c : Dev nD) → (b : Ref sig .tc) → Buf (Elt Ideal) ((c : Thread nD τ).loc b))

/-! ## The pieces of the argument -/

/-- The offsets of an access to a whole staging buffer are all zero. -/
private theorem zero_offsets2 : (![0, 0] : Fin 2 → Nat) = fun _ => 0 := funext fun a => by fin_cases a <;> rfl

/-- The index maps over the grid: at point `t` the rows, the column and the output are at block `(t, 0)`, the weights at
    block `(0, 0)`. -/
private theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(p, k)` of the rows block at point `t` is entry `(2048 t + p, k)` of the hidden layer. -/
private theorem rows_block2 (c : Dev nD) (t : Fin cfg2.N) (p : Fin 2048) (k : Fin 256) (i : Fin 16384)
    (hi : i.val = t.val * 2048 + p.val) :
    (iblk2 V c 0 t : Vec Ideal S2048x256 .f32) (ix2 p k) = (V c main_v33 : Arr Ideal S16384x256) (ix2 i k) := by
  obtain ⟨e0, e1, -⟩ := index_facts2 t
  unfold iblk2
  rw [View.read_apply]
  show V c main_v33 _ = V c main_v33 _
  congr 1
  funext a
  apply Fin.ext
  match a with
  | ⟨0, _⟩ => show win2_0.index t (0 : Fin 2) * 2048 + 1 * p.val = i.val; omega
  | ⟨1, _⟩ => show win2_0.index t (1 : Fin 2) * 256 + 1 * k.val = k.val; omega

/-- Entry `(p, 0)` of the column block at point `t` is entry `(2048 t + p, 0)` of the column. -/
private theorem column_block2 (c : Dev nD) (t : Fin cfg2.N) (p : Fin 2048) (i : Fin 16384)
    (hi : i.val = t.val * 2048 + p.val) :
    (iblk2 V c 1 t : Vec Ideal S2048x1 .f32) (ix2 p (0 : Fin 1)) = (V c main_v15 : Arr Ideal S16384x1) (ix2 i (0 : Fin 1)) := by
  obtain ⟨-, -, e0, e1, -⟩ := index_facts2 t
  unfold iblk2
  rw [View.read_apply]
  show V c main_v15 _ = V c main_v15 _
  congr 1
  funext a
  apply Fin.ext
  match a with
  | ⟨0, _⟩ => show win2_1.index t (0 : Fin 2) * 2048 + 1 * p.val = i.val; omega
  | ⟨1, _⟩ => show win2_1.index t (1 : Fin 2) * 1 + 1 * (0 : Fin 1).val = (0 : Fin 1).val; omega

/-- The weights block at every point is the whole weights. -/
private theorem weights_block2 (c : Dev nD) (t : Fin cfg2.N) (k : Fin 256) (q : Fin 64) :
    (iblk2 V c 2 t : Vec Ideal S256x64 .f32) (ix2 k q) = (V c main_arg8 : Arr Ideal S256x64) (ix2 k q) := by
  obtain ⟨-, -, -, -, e0, e1, -⟩ := index_facts2 t
  unfold iblk2
  rw [View.read_apply]
  show V c main_arg8 _ = V c main_arg8 _
  congr 1
  funext a
  apply Fin.ext
  match a with
  | ⟨0, _⟩ => show win2_2.index t (0 : Fin 2) * 256 + 1 * k.val = k.val; omega
  | ⟨1, _⟩ => show win2_2.index t (1 : Fin 2) * 64 + 1 * q.val = q.val; omega

/-- What point `t` computes at entry `y` of its block is the reference's projection at the entry `i` of the array that
    sits 2048 t rows further down: both are the sum over the contracted feature of `(x * s) * w`, term by term the same. -/
private theorem block_entry2 (c : Dev nD) (t : Fin cfg2.N) (y : S2048x64.Idx) (i : S16384x64.Idx)
    (h0 : (i 0).val = t.val * 2048 + (y 0).val) (h1 : (i 1).val = (y 1).val) :
    k2_pay1 (F := Ideal) (iblk2 V c 0 t) (iblk2 V c 1 t) (iblk2 V c 2 t) y
      = refProj256 (F := Ideal) (V c main_v33) (V c main_v15) (V c main_arg8) i := by
  obtain ⟨p, q, rfl⟩ : ∃ (p : Fin 2048) (q : Fin 64), y = ix2 p q := ⟨y 0, y 1, eq_ix2 y⟩
  obtain ⟨r, q', rfl⟩ : ∃ (r : Fin 16384) (q' : Fin 64), i = ix2 r q' := ⟨i 0, i 1, eq_ix2 i⟩
  have hr : r.val = t.val * 2048 + p.val := h0
  obtain rfl : q' = q := Fin.ext h1
  refine (Cert.ProjMath.k2_pay1_apply (iblk2 V c 0 t) (iblk2 V c 1 t) (iblk2 V c 2 t) p q').trans ?_
  refine Eq.trans ?_ (Cert.ProjMath.refProj256_apply (V c main_v33) (V c main_v15) (V c main_arg8) r q').symm
  refine Finset.sum_congr rfl fun k _ => ?_
  rw [rows_block2 V c t p k r hr, column_block2 V c t p r hr, weights_block2 V c t k q']

/-! ## From blocks to the array -/

/-- What point `t` writes back is block `t` of the reference's projection. -/
private theorem flushed_eq2 (c : Dev nD) (t : Fin cfg2.N) :
    (dat2 (F := Ideal) V c).flushed 3 t
      = ((cfg2.win 3).blk t).view.read (Elt Ideal) (refProj256 (F := Ideal) (V c main_v33) (V c main_v15) (V c main_arg8)) := by
  show (cfg2.win 3).cut (grid2.coords t) ((dat2 (F := Ideal) V c).after 3 t) = _
  rw [after2_3]
  unfold out2_3
  rw [View.canon_unit_zero zero_offsets2]
  simp only [View.ld_unit_zero (S := S2048x256) zero_offsets2, View.ld_unit_zero (S := S2048x1) zero_offsets2,
    View.ld_unit_zero (S := S256x64) zero_offsets2]
  obtain ⟨-, -, -, -, -, -, e0, e1⟩ := index_facts2 t
  funext j
  rw [View.read_apply]
  refine block_entry2 V c t ((cfg2.win 3).xinj (grid2.coords t) j) (((cfg2.win 3).blk t).view.emb j) ?_ ?_
  · show win2_3.index t (0 : Fin 2) * 2048 + 1 * (j 0).val = t.val * 2048 + (j 0).val; omega
  · show win2_3.index t (1 : Fin 2) * 64 + 1 * (j 1).val = (j 1).val; omega

/-- An entry of the array is in point `t`'s block iff each coordinate is in the block's range on its axis. -/
private theorem mem_block2 (t : Fin cfg2.N) (i : S16384x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v50).slice (win2_3.rect t)).set ↔ _
  rw [View.set_slice_whole, Rect.mem_set_unit]
  exact Iff.rfl

/-- The eight blocks tile the array: row `r` is in the block of point `r / 2048`, and every point writes back. -/
private theorem cover2 (i : S16384x64.Idx) :
    ∃ t : Fin cfg2.N, (cfg2.win 3).flush t = true ∧ i ∈ ((cfg2.win 3).blk t).view.set := by
  have hi0 : (i 0).val < 16384 := (i 0).isLt
  have hi1 : (i 1).val < 64 := (i 1).isLt
  obtain ⟨t, ht⟩ : ∃ t : Fin cfg2.N, t.val = (i 0).val / 2048 :=
    ⟨⟨(i 0).val / 2048, by rw [show cfg2.N = 8 from N_2]; omega⟩, rfl⟩
  obtain ⟨-, -, -, -, -, -, e0, e1⟩ := index_facts2 t
  refine ⟨t, flush2_3 t, ?_⟩
  rw [mem_block2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 64 ≤ (i 1).val ∧ (i 1).val < win2_3.index t (1 : Fin 2) * 64 + 64; omega

/-! ## The region's array -/

/-- Region 2's output array after the region's last write-back is the reference's projection of the arrays the region
    found: every grid point writes back the block of 2048 rows it computed, the blocks tile the array, and block `t`,
    entry by entry, is the sum over the contracted feature of `(x[2048 t + p, k] * s[2048 t + p, 0]) * w[k, q]`. -/
theorem final2 (c : Dev nD) :
    (dat2 (F := Ideal) V c).arrAt 3 cfg2.N = refProj256 (F := Ideal) (V c main_v33) (V c main_v15) (V c main_arg8) := by
  exact (dat2 (F := Ideal) V c).arrAt_eq_of_cover 3 (refProj256 (F := Ideal) (V c main_v33) (V c main_v15) (V c main_arg8))
    (fun t _ => flushed_eq2 V c t) cover2

end Cert.KernelIdeal.Final

end
-- ==== Proof.DecodeMath.lean ====
/-
  The two spellings of the decoder, read at one entry, at the ideal instance.
  The reference forms `z @ zᵀ` on the host and applies `1 / (1 + exp (-·))`; the kernel multiplies a block of rows of `z` by
  the transpose of another block of rows and applies the logistic operation. On the extended reals the logistic operation
  IS `1 / (1 + exp (-·))`, infinities included, so both are the logistic of the sum over the 64 features of
  `z[i,k] * z[j,k]`.
-/
import proofs.«133462_j79267916415284_1_alg».proof.Proof.Stages
import proofs.«133462_j79267916415284_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.DecodeMath

open Idealize.ShloMosaic Idealize.ShloMosaic.ValueIdx Cert.Stages

/-! ## The reference's product `z @ zᵀ` at an entry

The operand indices of a plain rows-by-columns product at output entry `(i, j)` and contraction coordinate `k` are
`(i, k)` on the left and `(k, j)` on the right: one lemma per axis, then the sum over the one-axis contraction index
re-indexed by its coordinate. -/

private theorem ref_lhs_0 (i : Cert.ReferenceIdeal.S16384x16384.Idx) (q : Cert.ReferenceIdeal.dot_S16384x64_S64x16384_S16384x16384_1_0_0_1_n_n.contr.Idx) :
    (Cert.ReferenceIdeal.dot_S16384x64_S64x16384_S16384x16384_1_0_0_1_n_n.lhsIdx i q 0).val = (i 0).val := by
  unfold DotDims.lhsIdx
  rw [dif_neg (show ¬(0 : Fin Cert.ReferenceIdeal.S16384x64.rank) ∈ Cert.ReferenceIdeal.dot_S16384x64_S64x16384_S16384x16384_1_0_0_1_n_n.lhsBatch by decide), dif_pos (show (0 : Fin Cert.ReferenceIdeal.S16384x64.rank) ∈ Cert.ReferenceIdeal.dot_S16384x64_S64x16384_S16384x16384_1_0_0_1_n_n.lhsNonContracting by decide)]
  rfl
private theorem ref_lhs_1 (i : Cert.ReferenceIdeal.S16384x16384.Idx) (q : Cert.ReferenceIdeal.dot_S16384x64_S64x16384_S16384x16384_1_0_0_1_n_n.contr.Idx) :
    (Cert.ReferenceIdeal.dot_S16384x64_S64x16384_S16384x16384_1_0_0_1_n_n.lhsIdx i q 1).val = (q ⟨0, by decide⟩).val :=
  Cert.ReferenceIdeal.dot_S16384x64_S64x16384_S16384x16384_1_0_0_1_n_n.lhsIdx_val_of_single rfl i q
private theorem ref_rhs_0 (i : Cert.ReferenceIdeal.S16384x16384.Idx) (q : Cert.ReferenceIdeal.dot_S16384x64_S64x16384_S16384x16384_1_0_0_1_n_n.contr.Idx) :
    (Cert.ReferenceIdeal.dot_S16384x64_S64x16384_S16384x16384_1_0_0_1_n_n.rhsIdx i q 0).val = (q ⟨0, by decide⟩).val :=
  Cert.ReferenceIdeal.dot_S16384x64_S64x16384_S16384x16384_1_0_0_1_n_n.rhsIdx_val_of_single rfl i q
private theorem ref_rhs_1 (i : Cert.ReferenceIdeal.S16384x16384.Idx) (q : Cert.ReferenceIdeal.dot_S16384x64_S64x16384_S16384x16384_1_0_0_1_n_n.contr.Idx) :
    (Cert.ReferenceIdeal.dot_S16384x64_S64x16384_S16384x16384_1_0_0_1_n_n.rhsIdx i q 1).val = (i 1).val := by
  unfold DotDims.rhsIdx
  rw [dif_neg (show ¬(1 : Fin Cert.ReferenceIdeal.S64x16384.rank) ∈ Cert.ReferenceIdeal.dot_S16384x64_S64x16384_S16384x16384_1_0_0_1_n_n.rhsBatch by decide), dif_pos (show (1 : Fin Cert.ReferenceIdeal.S64x16384.rank) ∈ Cert.ReferenceIdeal.dot_S16384x64_S64x16384_S16384x16384_1_0_0_1_n_n.rhsNonContracting by decide)]
  rfl

/-- The host's product of a `[16384, 64]` array by a `[64, 16384]` array at entry `(i, j)`: the sum over the 64
    contraction coordinates. -/
private theorem ref_dot_apply (y0 : FVec Ideal Cert.ReferenceIdeal.S16384x64 .f32) (y1 : FVec Ideal Cert.ReferenceIdeal.S64x16384 .f32) (i j : Fin 16384) :
    Host.dotGeneral (F := Ideal) Cert.ReferenceIdeal.dot_S16384x64_S64x16384_S16384x16384_1_0_0_1_n_n none y0 y1 (ix2 i j)
      = ∑ k : Fin 64, y0 (ix2 i k) * y1 (ix2 k j) := by
  simp only [Host.dotGeneral]
  rw [Ideal.dotGeneral_apply, ← Equiv.sum_comp (ValueIdx.contrEquiv1 Cert.ReferenceIdeal.dot_S16384x64_S64x16384_S16384x16384_1_0_0_1_n_n 64 rfl rfl).symm]
  refine Finset.sum_congr rfl fun k _ => ?_
  have hk := ValueIdx.contrEquiv1_symm_val Cert.ReferenceIdeal.dot_S16384x64_S64x16384_S16384x16384_1_0_0_1_n_n 64 rfl rfl k
  have el : Cert.ReferenceIdeal.dot_S16384x64_S64x16384_S16384x16384_1_0_0_1_n_n.lhsIdx (ix2 i j) ((ValueIdx.contrEquiv1 Cert.ReferenceIdeal.dot_S16384x64_S64x16384_S16384x16384_1_0_0_1_n_n 64 rfl rfl).symm k) = ix2 i k := funext fun a => Fin.ext (by
    match a with
    | ⟨0, _⟩ => exact ref_lhs_0 _ _
    | ⟨1, _⟩ => exact (ref_lhs_1 _ _).trans hk)
  have er : Cert.ReferenceIdeal.dot_S16384x64_S64x16384_S16384x16384_1_0_0_1_n_n.rhsIdx (ix2 i j) ((ValueIdx.contrEquiv1 Cert.ReferenceIdeal.dot_S16384x64_S64x16384_S16384x16384_1_0_0_1_n_n 64 rfl rfl).symm k) = ix2 k j := funext fun a => Fin.ext (by
    match a with
    | ⟨0, _⟩ => exact (ref_rhs_0 _ _).trans hk
    | ⟨1, _⟩ => exact ref_rhs_1 _ _)
  rw [el, er]

/-- The transposed array at entry `(k, j)` is the array at `(j, k)`. -/
private theorem ref_transpose_apply (z : FVec Ideal Cert.ReferenceIdeal.S16384x64 .f32) (k : Fin 64) (j : Fin 16384) :
    transpose Cert.ReferenceIdeal.S64x16384 [1, 0] z Cert.ReferenceIdeal.Gen.transposes_S16384x64_S64x16384_1_0 (ix2 k j) = z (ix2 j k) :=
  transpose_apply [1, 0] z Cert.ReferenceIdeal.Gen.transposes_S16384x64_S64x16384_1_0 (ix2 k j) (ix2 j k) (fun b => match b with
    | ⟨0, _⟩ => rfl
    | ⟨1, _⟩ => rfl)

/-- On the extended reals `1 / (1 + exp (-x))`, spelt with the host's operations over the word of one, is the logistic
    function. -/
private theorem host_logistic (x : Ideal .f32) :
    FloatOps.hostDivf (Ideal.ofBits .f32 0x3F800000#32) (FloatOps.addf (Ideal.ofBits .f32 0x3F800000#32) (FloatOps.hostUnary .exp (FloatOps.hostNegf x)))
      = Ideal.logistic x := by
  rw [Ideal.ofBits_one_f32]
  rfl

/-- The reference's pointwise tail `1 / (1 + exp (-d))` at an entry is the logistic function of `d` there. -/
private theorem ref_tail_apply (d : FVec Ideal Cert.ReferenceIdeal.S16384x16384 .f32) (ij : Cert.ReferenceIdeal.S16384x16384.Idx) :
    Host.divf (F := Ideal) (broadcastInDim Cert.ReferenceIdeal.S16384x16384 ![] Cert.ReferenceIdeal.Gen.bcast_S_S16384x16384 (constant (F := Ideal) Cert.ReferenceIdeal.S_ .f32 0x3F800000#32))
        (addf (broadcastInDim Cert.ReferenceIdeal.S16384x16384 ![] Cert.ReferenceIdeal.Gen.bcast_S_S16384x16384 (constant (F := Ideal) Cert.ReferenceIdeal.S_ .f32 0x3F800000#32)) (Host.exp (Host.negf d))) ij
      = Ideal.logistic (d ij) := by
  show FloatOps.hostDivf (broadcastInDim _ _ _ _ ij) (FloatOps.addf (broadcastInDim _ _ _ _ ij) (FloatOps.hostUnary .exp (FloatOps.hostNegf (d ij)))) = _
  rw [broadcastInDim_scalar_apply, constant_apply]
  exact host_logistic _

/-- The reference's decoder at entry `(i, j)`. -/
theorem refDecode_apply (z : Arr Ideal Cert.ReferenceIdeal.S16384x64) (i j : Fin 16384) :
    refDecode (F := Ideal) z (ix2 i j) = Ideal.logistic (∑ k : Fin 64, z (ix2 i k) * z (ix2 j k)) := by
  unfold refDecode
  rw [ref_tail_apply, ref_dot_apply]
  refine congrArg Ideal.logistic (Finset.sum_congr rfl fun k _ => ?_)
  rw [ref_transpose_apply]

/-! ## The kernel's product of a block of rows by the transpose of a block of rows, at an entry -/

private theorem ker_lhs_0 (i : Cert.KernelIdeal.S1024x1024.Idx) (q : Cert.KernelIdeal.dot_S1024x64_S64x1024_S1024x1024_1_0_0_1_n_n.contr.Idx) :
    (Cert.KernelIdeal.dot_S1024x64_S64x1024_S1024x1024_1_0_0_1_n_n.lhsIdx i q 0).val = (i 0).val := by
  unfold DotDims.lhsIdx
  rw [dif_neg (show ¬(0 : Fin Cert.KernelIdeal.S1024x64.rank) ∈ Cert.KernelIdeal.dot_S1024x64_S64x1024_S1024x1024_1_0_0_1_n_n.lhsBatch by decide), dif_pos (show (0 : Fin Cert.KernelIdeal.S1024x64.rank) ∈ Cert.KernelIdeal.dot_S1024x64_S64x1024_S1024x1024_1_0_0_1_n_n.lhsNonContracting by decide)]
  rfl
private theorem ker_lhs_1 (i : Cert.KernelIdeal.S1024x1024.Idx) (q : Cert.KernelIdeal.dot_S1024x64_S64x1024_S1024x1024_1_0_0_1_n_n.contr.Idx) :
    (Cert.KernelIdeal.dot_S1024x64_S64x1024_S1024x1024_1_0_0_1_n_n.lhsIdx i q 1).val = (q ⟨0, by decide⟩).val :=
  Cert.KernelIdeal.dot_S1024x64_S64x1024_S1024x1024_1_0_0_1_n_n.lhsIdx_val_of_single rfl i q
private theorem ker_rhs_0 (i : Cert.KernelIdeal.S1024x1024.Idx) (q : Cert.KernelIdeal.dot_S1024x64_S64x1024_S1024x1024_1_0_0_1_n_n.contr.Idx) :
    (Cert.KernelIdeal.dot_S1024x64_S64x1024_S1024x1024_1_0_0_1_n_n.rhsIdx i q 0).val = (q ⟨0, by decide⟩).val :=
  Cert.KernelIdeal.dot_S1024x64_S64x1024_S1024x1024_1_0_0_1_n_n.rhsIdx_val_of_single rfl i q
private theorem ker_rhs_1 (i : Cert.KernelIdeal.S1024x1024.Idx) (q : Cert.KernelIdeal.dot_S1024x64_S64x1024_S1024x1024_1_0_0_1_n_n.contr.Idx) :
    (Cert.KernelIdeal.dot_S1024x64_S64x1024_S1024x1024_1_0_0_1_n_n.rhsIdx i q 1).val = (i 1).val := by
  unfold DotDims.rhsIdx
  rw [dif_neg (show ¬(1 : Fin Cert.KernelIdeal.S64x1024.rank) ∈ Cert.KernelIdeal.dot_S1024x64_S64x1024_S1024x1024_1_0_0_1_n_n.rhsBatch by decide), dif_pos (show (1 : Fin Cert.KernelIdeal.S64x1024.rank) ∈ Cert.KernelIdeal.dot_S1024x64_S64x1024_S1024x1024_1_0_0_1_n_n.rhsNonContracting by decide)]
  rfl

/-- The kernel's product of a `[1024, 64]` block by a `[64, 1024]` block into the zero accumulator, at entry
    `(p, q)`: the sum over the 64 contraction coordinates. -/
private theorem ker_matmul_apply (y0 : FVec Ideal Cert.KernelIdeal.S1024x64 .bf16) (y1 : FVec Ideal Cert.KernelIdeal.S64x1024 .bf16) (p q : Fin 1024) :
    matmul (F := Ideal) Cert.KernelIdeal.dot_S1024x64_S64x1024_S1024x1024_1_0_0_1_n_n none y0 y1 (constant (F := Ideal) Cert.KernelIdeal.S1024x1024 .f32 0x00000000#32) (ix2 p q)
      = ∑ k : Fin 64, y0 (ix2 p k) * y1 (ix2 k q) := by
  show FloatOps.matmul _ _ _ _ _ _ = _
  rw [Ideal.matmul_constant_zero_apply, ← Equiv.sum_comp (ValueIdx.contrEquiv1 Cert.KernelIdeal.dot_S1024x64_S64x1024_S1024x1024_1_0_0_1_n_n 64 rfl rfl).symm]
  refine Finset.sum_congr rfl fun k _ => ?_
  have hk := ValueIdx.contrEquiv1_symm_val Cert.KernelIdeal.dot_S1024x64_S64x1024_S1024x1024_1_0_0_1_n_n 64 rfl rfl k
  have el : Cert.KernelIdeal.dot_S1024x64_S64x1024_S1024x1024_1_0_0_1_n_n.lhsIdx (ix2 p q) ((ValueIdx.contrEquiv1 Cert.KernelIdeal.dot_S1024x64_S64x1024_S1024x1024_1_0_0_1_n_n 64 rfl rfl).symm k) = ix2 p k := funext fun a => Fin.ext (by
    match a with
    | ⟨0, _⟩ => exact ker_lhs_0 _ _
    | ⟨1, _⟩ => exact (ker_lhs_1 _ _).trans hk)
  have er : Cert.KernelIdeal.dot_S1024x64_S64x1024_S1024x1024_1_0_0_1_n_n.rhsIdx (ix2 p q) ((ValueIdx.contrEquiv1 Cert.KernelIdeal.dot_S1024x64_S64x1024_S1024x1024_1_0_0_1_n_n 64 rfl rfl).symm k) = ix2 k q := funext fun a => Fin.ext (by
    match a with
    | ⟨0, _⟩ => exact (ker_rhs_0 _ _).trans hk
    | ⟨1, _⟩ => exact ker_rhs_1 _ _)
  rw [el, er]

/-- The transposed block at entry `(k, q)` is the block at `(q, k)`. -/
private theorem ker_transpose_apply (y : FVec Ideal Cert.KernelIdeal.S1024x64 .bf16) (k : Fin 64) (q : Fin 1024) :
    transpose Cert.KernelIdeal.S64x1024 [1, 0] y Cert.KernelIdeal.Gen.transposes_S1024x64_p1_0_S64x1024 (ix2 k q) = y (ix2 q k) :=
  transpose_apply [1, 0] y Cert.KernelIdeal.Gen.transposes_S1024x64_p1_0_S64x1024 (ix2 k q) (ix2 q k) (fun b => match b with
    | ⟨0, _⟩ => rfl
    | ⟨1, _⟩ => rfl)

/-- The decoder kernel's stored block at entry `(p, q)`, from the two blocks of rows it loaded. -/
theorem k3_pay1_apply (x0 x1 : Vec Ideal Cert.KernelIdeal.S1024x64 .f32) (p q : Fin 1024) :
    Cert.KernelIdeal.Gen.k3_pay1 (F := Ideal) x0 x1 (ix2 p q) = Ideal.logistic (∑ k : Fin 64, x0 (ix2 p k) * x1 (ix2 q k)) := by
  unfold Cert.KernelIdeal.Gen.k3_pay1
  show FloatOps.logistic (matmul _ _ _ _ _ (ix2 p q)) = _
  rw [Ideal.logistic_def, ker_matmul_apply]
  refine congrArg Ideal.logistic (Finset.sum_congr rfl fun k _ => ?_)
  rw [ker_transpose_apply, truncf_apply, truncf_apply, shapeCast_self, shapeCast_self]

end Cert.DecodeMath

end
-- ==== Proof.Final3.lean ====
/-
  Region 3's value at the ideal instance: the array its output window leaves is the reference's decoder `1 / (1 + exp (-(z @ zᵀ)))` of the arrays it found.
-/
import proofs.«133462_j79267916415284_1_alg».proof.Proof.Body3
import proofs.«133462_j79267916415284_1_alg».proof.Proof.Stages
import proofs.«133462_j79267916415284_1_alg».proof.Proof.DecodeMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Final

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Stages

-- the TensorCore's buffer contents when the region is entered, at the ideal instance
variable (V : (c : Dev nD) → (b : Ref sig .tc) → Buf (Elt Ideal) ((c : Thread nD τ).loc b))

/-- The body's loads and its store start at offset zero on both axes. -/
private theorem zero_offsets : (![0, 0] : Fin 2 → Nat) = fun _ => 0 := funext fun a => by fin_cases a <;> rfl

/-- The block indices at grid point `t = 16 a + b`: the first window is at row block `a`, the second at row block `b`
    (both at column block 0), the output at block `(a, b)`. -/
private theorem block_indices : ∀ t : Fin cfg3.N,
    win3_0.index t (0 : Fin 2) = t.val / 16 ∧ win3_0.index t (1 : Fin 2) = 0
    ∧ win3_1.index t (0 : Fin 2) = t.val % 16 ∧ win3_1.index t (1 : Fin 2) = 0
    ∧ win3_2.index t (0 : Fin 2) = t.val / 16 ∧ win3_2.index t (1 : Fin 2) = t.val % 16 :=
  (by decide +kernel : ∀ t : Fin grid3.N, _)

/-- One entry of one output block. When `x0` is rows `1024 a ..` of `z` and `x1` is rows `1024 b ..` of `z`, the
    body's entry `(p, q)` is the decoder's entry `(1024 a + p, 1024 b + q)`: both are the logistic of
    `Σ_k z[1024 a + p, k] * z[1024 b + q, k]`. -/
private theorem block_entry (z : Arr Ideal Cert.ReferenceIdeal.S16384x64) (x0 x1 : Vec Ideal S1024x64 .f32) (a b : Nat)
    (h0 : ∀ (p : Fin 1024) (k : Fin 64) (r : Fin 16384), r.val = a * 1024 + p.val → x0 (ix2 p k) = z (ix2 r k))
    (h1 : ∀ (q : Fin 1024) (k : Fin 64) (s : Fin 16384), s.val = b * 1024 + q.val → x1 (ix2 q k) = z (ix2 s k))
    (y : S1024x1024.Idx) (i : Cert.ReferenceIdeal.S16384x16384.Idx)
    (hi0 : (i 0).val = a * 1024 + (y 0).val) (hi1 : (i 1).val = b * 1024 + (y 1).val) :
    k3_pay1 (F := Ideal) x0 x1 y = refDecode (F := Ideal) z i := by
  obtain ⟨p, q, rfl⟩ : ∃ (p q : Fin 1024), y = ix2 p q := ⟨y 0, y 1, eq_ix2 y⟩
  obtain ⟨r, s, rfl⟩ : ∃ (r s : Fin 16384), i = ix2 r s := ⟨i 0, i 1, eq_ix2 i⟩
  rw [Cert.DecodeMath.k3_pay1_apply, Cert.DecodeMath.refDecode_apply]
  congr 1
  refine Finset.sum_congr rfl fun k _ => ?_
  rw [h0 p k r hi0, h1 q k s hi1]

/-- The first window's block at point `t` is rows `1024 (t / 16) ..` of the latent array: a block's coordinate is the
    block index times the block's size plus the coordinate inside the block. -/
private theorem rows_block0 (c : Dev nD) (t : Fin cfg3.N) (p : Fin 1024) (k : Fin 64) (r : Fin 16384)
    (hr : r.val = t.val / 16 * 1024 + p.val) :
    (iblk3 V c 0 t : Vec Ideal S1024x64 .f32) (ix2 p k) = (V c main_v68 : Cert.ReferenceIdeal.S16384x64.Idx → Elt Ideal .f32) (ix2 r k) := by
  obtain ⟨e0, e1, -⟩ := block_indices t
  unfold iblk3
  rw [View.read_apply]
  show V c main_v68 _ = V c main_v68 _
  congr 1
  funext a
  apply Fin.ext
  match a with
  | ⟨0, _⟩ => show win3_0.index t (0 : Fin 2) * 1024 + 1 * p.val = r.val; rw [e0, hr]; omega
  | ⟨1, _⟩ => show win3_0.index t (1 : Fin 2) * 64 + 1 * k.val = k.val; rw [e1]; omega

/-- The second window's block at point `t` is rows `1024 (t % 16) ..` of the same array. -/
private theorem rows_block1 (c : Dev nD) (t : Fin cfg3.N) (q : Fin 1024) (k : Fin 64) (s : Fin 16384)
    (hs : s.val = t.val % 16 * 1024 + q.val) :
    (iblk3 V c 1 t : Vec Ideal S1024x64 .f32) (ix2 q k) = (V c main_v68 : Cert.ReferenceIdeal.S16384x64.Idx → Elt Ideal .f32) (ix2 s k) := by
  obtain ⟨-, -, e0, e1, -⟩ := block_indices t
  unfold iblk3
  rw [View.read_apply]
  show V c main_v68 _ = V c main_v68 _
  congr 1
  funext a
  apply Fin.ext
  match a with
  | ⟨0, _⟩ => show win3_1.index t (0 : Fin 2) * 1024 + 1 * q.val = s.val; rw [e0, hs]; omega
  | ⟨1, _⟩ => show win3_1.index t (1 : Fin 2) * 64 + 1 * k.val = k.val; rw [e1]; omega

/-- What point `t` writes back is block `t` of the decoder of the latent array: the one store at offset zero leaves its
    payload, the two loads at offset zero read the staged blocks, and entry by entry the payload is the decoder at the
    block's place in the array. -/
private theorem written_block (c : Dev nD) (t : Fin cfg3.N) :
    (dat3 (F := Ideal) V c).flushed 2 t = ((cfg3.win 2).blk t).view.read (Elt Ideal) (refDecode (F := Ideal) (V c main_v68)) := by
  show (cfg3.win 2).cut (grid3.coords t) ((dat3 V c).after 2 t) = _
  rw [after3_2]
  unfold out3_2
  rw [View.canon_unit_zero zero_offsets]
  simp only [View.ld_unit_zero (S := S1024x64) zero_offsets]
  obtain ⟨-, -, -, -, e0, e1⟩ := block_indices t
  funext j
  show k3_pay1 (F := Ideal) (iblk3 V c 0 t) (iblk3 V c 1 t) j = refDecode (F := Ideal) (V c main_v68) (((cfg3.win 2).blk t).view.emb j)
  refine block_entry (V c main_v68) _ _ (t.val / 16) (t.val % 16) (fun p k r hr => rows_block0 V c t p k r hr) (fun q k s hs => rows_block1 V c t q k s hs) j _ ?_ ?_
  · show win3_2.index t (0 : Fin 2) * 1024 + 1 * (j 0).val = _; rw [e0]; omega
  · show win3_2.index t (1 : Fin 2) * 1024 + 1 * (j 1).val = _; rw [e1]; omega

/-- An entry of the output array is in point `t`'s block iff each coordinate is in the block's range on its axis. -/
private theorem mem_block (t : Fin cfg3.N) (i : S16384x16384.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v69).slice (win3_2.rect t)).set ↔ _
  rw [View.set_slice_whole, Rect.mem_set_unit]
  exact Iff.rfl

/-- The 256 blocks tile the array: entry `(r, s)` is in the block of point `16 (r / 1024) + s / 1024`. -/
private theorem blocks_tile (i : S16384x16384.Idx) :
    ∃ t : Fin cfg3.N, (cfg3.win 2).flush t = true ∧ i ∈ ((cfg3.win 2).blk t).view.set := by
  have hi0 : (i 0).val < 16384 := (i 0).isLt
  have hi1 : (i 1).val < 16384 := (i 1).isLt
  have hN : cfg3.N = 256 := N_3
  let t : Fin cfg3.N := ⟨16 * ((i 0).val / 1024) + (i 1).val / 1024, by rw [hN]; omega⟩
  have ht : t.val = 16 * ((i 0).val / 1024) + (i 1).val / 1024 := rfl
  obtain ⟨-, -, -, -, e0, e1⟩ := block_indices t
  refine ⟨t, flush3_2 t, ?_⟩
  rw [mem_block]
  intro a
  match a with
  | ⟨0, _⟩ => show win3_2.index t (0 : Fin 2) * 1024 ≤ (i 0).val ∧ (i 0).val < win3_2.index t (0 : Fin 2) * 1024 + 1024; rw [e0, ht]; omega
  | ⟨1, _⟩ => show win3_2.index t (1 : Fin 2) * 1024 ≤ (i 1).val ∧ (i 1).val < win3_2.index t (1 : Fin 2) * 1024 + 1024; rw [e1, ht]; omega

/-- Region 3's output array after the region's last write-back is the reference's decoder of the latent array the region
    found: grid point `(a, b)` writes back the block of rows `1024 a ..` and columns `1024 b ..`, the 256 blocks tile the
    array, and the block's entry `(p, q)` is the logistic of the sum over the 64 features of
    `z[1024 a + p, k] * z[1024 b + q, k]`. -/
theorem final3 (c : Dev nD) :
    (dat3 (F := Ideal) V c).arrAt 2 cfg3.N = refDecode (F := Ideal) (V c main_v68) :=
  (dat3 (F := Ideal) V c).arrAt_eq_of_cover 2 (refDecode (F := Ideal) (V c main_v68)) (fun t _ => written_block V c t) blocks_tile

end Cert.KernelIdeal.Final

end
-- ==== Proof.HostStages.lean ====
/-
  The kernel program's host stretches as the shared stages, for any float family and from ANY contents `W` of the core's
  buffers: what each stretch leaves in the buffers a later kernel region or the result reads.
-/
import proofs.«133462_j79267916415284_1_alg».proof.Proof.Gen.KernelIdeal.Launch
import proofs.«133462_j79267916415284_1_alg».proof.Proof.Stages
import Idealize.ShloMosaic.Lib.StableHlo.Run

noncomputable section

namespace Cert.KernelIdeal.HostStages

open Idealize.ShloMosaic Idealize.ShloMosaic.TcCoe Idealize.SL.Sem
open Cert.KernelIdeal Cert.KernelIdeal.Gen Cert.Stages

variable {F : FTy → Type} [FloatOps F]
variable (W : Valuation τ sig (Elt F))

/-- The first stretch leaves the out-degree column, -/
theorem host0_v15 : StableHlo.after hostOps0 W main_v15 = col (norm (W main_arg1)) := by
  -- the stretch counts each node's edges by a scatter-add of ones into zeros, takes the maximum with one, raises it to
  -- the power -1/2, and lays the vector out as a column
  after_results_simp
  unfold col norm
  rfl
/-- and the in-degree column. -/
theorem host0_v16 : StableHlo.after hostOps0 W main_v16 = col (norm (W main_arg2)) := by
  after_results_simp
  unfold col norm
  rfl

/-- The stretches between the first and the second kernel region leave the hidden layer. -/
theorem host1_v33 : StableHlo.after hostOps1_1 (StableHlo.after hostOps1 W) main_v33
    = relu (layer256 (W main_v17) (W main_arg1) (W main_arg2) (W main_v16) (W main_arg5)) := by
  -- the second stretch reads the first stretch's sum-plus-bias array and takes its maximum with the zero array
  after_results_simp
  unfold relu layer256 wrap
  rfl

/-- The stretch between the second and the third kernel region leaves the mean. -/
theorem host2_v49 : StableHlo.after hostOps2 W main_v49
    = layer64 (W main_v34) (W main_arg1) (W main_arg2) (W main_v16) (W main_arg7) := by
  after_results_simp
  unfold layer64 wrap
  rfl

/-- The stretch before the decoder leaves the latent array. -/
theorem host3_v68 : StableHlo.after hostOps3 W main_v68
    = latent (W main_v49) (W main_arg3) (layer64 (W main_v50) (W main_arg1) (W main_arg2) (W main_v16) (W main_arg9)) := by
  -- the stretch aggregates the log-deviation projection, exponentiates it, scales the noise and adds the mean
  after_results_simp
  unfold latent layer64 wrap
  rfl

end Cert.KernelIdeal.HostStages

end
-- ==== Proof.Bridge.lean ====
/-
  The kernel program's two results at the ideal instance, as the shared stages of the argument arrays.
  Boundary by boundary through the fold: the first host stretch leaves the two degree columns; region 0 leaves the first
  projection `(x * column) @ w` (its blocks tile the array and each is the reference's sum); the next stretches leave the
  hidden layer; regions 1 and 2 leave the two projections of the hidden layer, the stretches after them the mean and the
  latent array; region 3 leaves the decoder of the latent array. These are, stage for stage, the reference's two results.
-/
import proofs.«133462_j79267916415284_1_alg».proof.Proof.Keep
import proofs.«133462_j79267916415284_1_alg».proof.Proof.Final0
import proofs.«133462_j79267916415284_1_alg».proof.Proof.Final1
import proofs.«133462_j79267916415284_1_alg».proof.Proof.Final2
import proofs.«133462_j79267916415284_1_alg».proof.Proof.Final3
import proofs.«133462_j79267916415284_1_alg».proof.Proof.HostStages
import proofs.«133462_j79267916415284_1_alg».proof.Proof.Stages

set_option maxRecDepth 16384

noncomputable section

namespace Cert.KernelIdeal.Bridge

open Idealize.ShloMosaic Idealize.ShloMosaic.TcCoe Idealize.SL.Sem
open Cert.KernelIdeal Cert.KernelIdeal.Body Cert.KernelIdeal.Run Cert.KernelIdeal.Final Cert.KernelIdeal.HostStages Cert.Stages
open Cert.KernelIdeal.Gen (hostOps0_W hostOps1_W hostOps1_1_W hostOps2_W hostOps3_W)

variable (m : (ℓ : Loc nD τ sig) → Buf (Elt Ideal) ℓ) (c : Dev nD)

/-- The first host stretch leaves the out-degree column -/
theorem dout_eq : V1 m c main_v15 = col (norm (m ((c : Thread nD τ).loc main_arg1))) := host0_v15 (W0 m c)
/-- and the in-degree column. -/
theorem din_eq : V1 m c main_v16 = col (norm (m ((c : Thread nD τ).loc main_arg2))) := host0_v16 (W0 m c)

/-- Region 0 leaves the first projection of the features. -/
theorem proj0_eq : V2 m c main_v17 = refProj512 (m ((c : Thread nD τ).loc main_arg0)) (col (norm (m ((c : Thread nD τ).loc main_arg1)))) (m ((c : Thread nD τ).loc main_arg4)) := by
  refine (W2_arr m c 3).trans ((final0 (V1 m) c).trans ?_)
  rw [dout_eq, V1_keep m c main_arg0 (by decide), V1_keep m c main_arg4 (by decide)]

/-- The stretches after it leave the hidden layer. -/
theorem hidden_eq : V4 m c main_v33 = hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5)) := by
  refine (host1_v33 (W2 m c)).trans ?_
  show relu (layer256 (V2 m c main_v17) (V2 m c main_arg1) (V2 m c main_arg2) (V2 m c main_v16) (V2 m c main_arg5)) = _
  rw [proj0_eq, V2_keep m c main_arg1 (by decide), V2_keep m c main_arg2 (by decide), V2_keep m c main_v16 (by decide), V2_keep m c main_arg5 (by decide),
    V1_keep m c main_arg1 (by decide), V1_keep m c main_arg2 (by decide), V1_keep m c main_arg5 (by decide), din_eq]
  rfl

/-- The out-degree column reaches regions 1 and 2 as the first stretch left it. -/
theorem dout_at4 : V4 m c main_v15 = col (norm (m ((c : Thread nD τ).loc main_arg1))) :=
  (V4_keep m c main_v15 (by decide) (by decide)).trans ((V2_keep m c main_v15 (by decide)).trans (dout_eq m c))
theorem dout_at6 : V6 m c main_v15 = col (norm (m ((c : Thread nD τ).loc main_arg1))) :=
  (V6_keep m c main_v15 (by decide)).trans ((V5_keep m c main_v15 (by decide)).trans (dout_at4 m c))
/-- The in-degree column likewise reaches every later stretch. -/
theorem din_at5 : V5 m c main_v16 = col (norm (m ((c : Thread nD τ).loc main_arg2))) :=
  (V5_keep m c main_v16 (by decide)).trans ((V4_keep m c main_v16 (by decide) (by decide)).trans ((V2_keep m c main_v16 (by decide)).trans (din_eq m c)))
theorem din_at7 : V7 m c main_v16 = col (norm (m ((c : Thread nD τ).loc main_arg2))) :=
  (V7_keep m c main_v16 (by decide)).trans ((V6_keep m c main_v16 (by decide)).trans (din_at5 m c))
/-- An argument array is at its launch contents at every boundary. -/
theorem arg_at4 (r : Ref sig .tc) (h0 : r ∉ hostOps0_W) (h1 : r ∉ hostOps1_W) (h11 : r ∉ hostOps1_1_W) (h17 : r ≠ main_v17) :
    V4 m c r = m ((c : Thread nD τ).loc r) :=
  (V4_keep m c r h1 h11).trans ((V2_keep m c r h17).trans (V1_keep m c r h0))
theorem arg_at5 (r : Ref sig .tc) (h0 : r ∉ hostOps0_W) (h1 : r ∉ hostOps1_W) (h11 : r ∉ hostOps1_1_W) (h17 : r ≠ main_v17) (h34 : r ≠ main_v34) :
    V5 m c r = m ((c : Thread nD τ).loc r) :=
  (V5_keep m c r h34).trans (arg_at4 m c r h0 h1 h11 h17)
theorem arg_at6 (r : Ref sig .tc) (h0 : r ∉ hostOps0_W) (h1 : r ∉ hostOps1_W) (h11 : r ∉ hostOps1_1_W) (h2 : r ∉ hostOps2_W) (h17 : r ≠ main_v17) (h34 : r ≠ main_v34) :
    V6 m c r = m ((c : Thread nD τ).loc r) :=
  (V6_keep m c r h2).trans (arg_at5 m c r h0 h1 h11 h17 h34)
theorem arg_at7 (r : Ref sig .tc) (h0 : r ∉ hostOps0_W) (h1 : r ∉ hostOps1_W) (h11 : r ∉ hostOps1_1_W) (h2 : r ∉ hostOps2_W) (h17 : r ≠ main_v17) (h34 : r ≠ main_v34) (h50 : r ≠ main_v50) :
    V7 m c r = m ((c : Thread nD τ).loc r) :=
  (V7_keep m c r h50).trans (arg_at6 m c r h0 h1 h11 h2 h17 h34)

/-- Region 1 leaves the hidden layer's projection for the mean. -/
theorem proj1_eq : V5 m c main_v34 = refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg6)) := by
  refine (W5_arr m c 3).trans ((final1 (V4 m) c).trans ?_)
  rw [hidden_eq, dout_at4, arg_at4 m c main_arg6 (by decide) (by decide) (by decide) (by decide)]

/-- The hidden layer reaches region 2 as region 1 found it. -/
theorem hidden_at6 : V6 m c main_v33 = hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5)) :=
  (V6_keep m c main_v33 (by decide)).trans ((V5_keep m c main_v33 (by decide)).trans (hidden_eq m c))

/-- The stretch after region 1 leaves the mean. -/
theorem mean_eq : V6 m c main_v49 = layer64 (refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg6))) (m ((c : Thread nD τ).loc main_arg1)) (m ((c : Thread nD τ).loc main_arg2)) (col (norm (m ((c : Thread nD τ).loc main_arg2)))) (m ((c : Thread nD τ).loc main_arg7)) := by
  refine (host2_v49 (W5 m c)).trans ?_
  show layer64 (V5 m c main_v34) (V5 m c main_arg1) (V5 m c main_arg2) (V5 m c main_v16) (V5 m c main_arg7) = _
  rw [proj1_eq, din_at5, arg_at5 m c main_arg1 (by decide) (by decide) (by decide) (by decide) (by decide), arg_at5 m c main_arg2 (by decide) (by decide) (by decide) (by decide) (by decide),
    arg_at5 m c main_arg7 (by decide) (by decide) (by decide) (by decide) (by decide)]

/-- Region 2 leaves the hidden layer's projection for the log standard deviation. -/
theorem proj2_eq : V7 m c main_v50 = refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg8)) := by
  refine (W7_arr m c 3).trans ((final2 (V6 m) c).trans ?_)
  rw [hidden_at6, dout_at6, arg_at6 m c main_arg8 (by decide) (by decide) (by decide) (by decide) (by decide) (by decide)]

/-- The last stretch leaves the latent array: the reference's, stage for stage. -/
theorem latent_eq : V8 m c main_v68 = zOf (refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg6))) (refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg8))) (m ((c : Thread nD τ).loc main_arg1)) (m ((c : Thread nD τ).loc main_arg2)) (m ((c : Thread nD τ).loc main_arg3)) (m ((c : Thread nD τ).loc main_arg7)) (m ((c : Thread nD τ).loc main_arg9)) := by
  refine (host3_v68 (W7 m c)).trans ?_
  show latent (V7 m c main_v49) (V7 m c main_arg3) (layer64 (V7 m c main_v50) (V7 m c main_arg1) (V7 m c main_arg2) (V7 m c main_v16) (V7 m c main_arg9)) = _
  rw [V7_keep m c main_v49 (by decide), mean_eq, proj2_eq, din_at7, arg_at7 m c main_arg3 (by decide) (by decide) (by decide) (by decide) (by decide) (by decide) (by decide),
    arg_at7 m c main_arg1 (by decide) (by decide) (by decide) (by decide) (by decide) (by decide) (by decide), arg_at7 m c main_arg2 (by decide) (by decide) (by decide) (by decide) (by decide) (by decide) (by decide),
    arg_at7 m c main_arg9 (by decide) (by decide) (by decide) (by decide) (by decide) (by decide) (by decide)]
  rfl

/-- The second result: region 3 does not write the latent array. -/
theorem result_latent : V9 m c main_v68 = zOf (refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg6))) (refProj256 (hidden (refProj512 (m ((c : Thread nD τ).loc main_arg0)) (col (norm (m ((c : Thread nD τ).loc main_arg1)))) (m ((c : Thread nD τ).loc main_arg4))) (m ((c : Thread nD τ).loc main_arg1)) (m ((c : Thread nD τ).loc main_arg2)) (m ((c : Thread nD τ).loc main_arg5))) (col (norm (m ((c : Thread nD τ).loc main_arg1)))) (m ((c : Thread nD τ).loc main_arg8))) (m ((c : Thread nD τ).loc main_arg1)) (m ((c : Thread nD τ).loc main_arg2)) (m ((c : Thread nD τ).loc main_arg3)) (m ((c : Thread nD τ).loc main_arg7)) (m ((c : Thread nD τ).loc main_arg9)) :=
  (W9_of_ne m c main_v68 (by decide)).trans (latent_eq m c)

/-- The first result: region 3 leaves the reference's decoder of the latent array. -/
theorem result_adj : V9 m c main_v69 = refDecode (V9 m c main_v68) := by
  rw [W9_of_ne m c main_v68 (by decide)]
  exact (W9_v69 m c).trans (final3 (V8 m) c)

end Cert.KernelIdeal.Bridge

end
-- ==== Proof.RefValue.lean ====
/-
  The reference program's two results as the shared stages around its own projections and decoder, for any float family,
  and the reference's frame. The run's composed terms are exactly these stages spelt out operation by operation.
-/
import proofs.«133462_j79267916415284_1_alg».proof.Defs
import proofs.«133462_j79267916415284_1_alg».proof.Proof.Gen.ReferenceIdeal.Run
import proofs.«133462_j79267916415284_1_alg».proof.Proof.Stages
import proofs.«133462_j79267916415284_1_alg».proof.Proof.Gen.Pre_finite_inputs

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Stages

variable {F : FTy → Type} [FloatOps F]

/-- The reference's hidden layer, from the argument arrays. -/
def hiddenRef (m : (ℓ : Loc nD τ sig) → Buf (Elt F) ℓ) (c : Dev nD) : Arr F S16384x256 :=
  hidden (refProj512 (m ((c.tc : Thread nD τ).loc main_arg0)) (col (norm (m ((c.tc : Thread nD τ).loc main_arg1)))) (m ((c.tc : Thread nD τ).loc main_arg4)))
    (m ((c.tc : Thread nD τ).loc main_arg1)) (m ((c.tc : Thread nD τ).loc main_arg2)) (m ((c.tc : Thread nD τ).loc main_arg5))

set_option maxRecDepth 8192 in
/-- The reference's second result, the latent array, is the shared stages around its three projections. -/
theorem res_latent_eq (m : (ℓ : Loc nD τ sig) → Buf (Elt F) ℓ) (c : Dev nD) :
    res_main_v78 (F := F) m c
      = zOf (refProj256 (hiddenRef m c) (col (norm (m ((c.tc : Thread nD τ).loc main_arg1)))) (m ((c.tc : Thread nD τ).loc main_arg6)))
          (refProj256 (hiddenRef m c) (col (norm (m ((c.tc : Thread nD τ).loc main_arg1)))) (m ((c.tc : Thread nD τ).loc main_arg8)))
          (m ((c.tc : Thread nD τ).loc main_arg1)) (m ((c.tc : Thread nD τ).loc main_arg2)) (m ((c.tc : Thread nD τ).loc main_arg3))
          (m ((c.tc : Thread nD τ).loc main_arg7)) (m ((c.tc : Thread nD τ).loc main_arg9)) := by
  rfl

set_option maxRecDepth 8192 in
/-- The reference's first result is its decoder of the latent array. -/
theorem res_adj_eq (m : (ℓ : Loc nD τ sig) → Buf (Elt F) ℓ) (c : Dev nD) :
    res_main_v86 (F := F) m c = refDecode (res_main_v78 (F := F) m c) := by
  rfl

/-- The reference runs to the end, faults nowhere and leaves its arguments as launched: its generated run with the results
    dropped. -/
theorem frame : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.lean ====
/-
  The certificate of a graph auto-encoder whose three projections `(x * column) @ w` and whose decoder `sigmoid (z @ zᵀ)` run
  as kernels, against the same computation done wholly by host operations.

  At the ideal instance a change of float format is the identity, the matrix unit's product into a zero accumulator is
  the plain sum over the contracted axis, and the logistic operation IS `1 / (1 + exp (-x))` on the extended reals,
  infinities included. So each projection kernel's blocks of 2048 rows tile the array `(x * column) @ w` the reference
  forms with one `dot_general`, and the decoder kernel's 16 x 16 blocks tile `1 / (1 + exp (-(z @ zᵀ)))`; no law that
  needs finite inputs is used (the sums are the same sums, term for term). Everything between the kernels — the degree
  normalisation by scatter-add, the gathers along the edges, the scatter-adds into the nodes, the bias, relu and the
  reparameterisation — is the same chain of host operations in both programs and is carried as named stages, never opened.

  The frames: the kernel program runs as nine items (host stretches and four kernel regions); each region's body is run
  once at a symbolic grid point, and between items the core holds its unscoped buffers at a fold of contents from the
  launch memory; nothing writes an argument. The decoder's two input windows read one array, held in two half shares
  while the region runs. The word-level program's frame is the same argument at the word-level instance. The reference's
  frame is its run with the results dropped. The ideal pass rewrote nothing, so `preserves` is trivial.
-/
import proofs.«133462_j79267916415284_1_alg».proof.Defs
import proofs.«133462_j79267916415284_1_alg».proof.Proof.Gen.Kernel
import proofs.«133462_j79267916415284_1_alg».proof.Proof.Gen.KernelIdeal
import proofs.«133462_j79267916415284_1_alg».proof.Proof.Gen.ReferenceIdeal
import proofs.«133462_j79267916415284_1_alg».proof.Proof.Gen.Pre_finite_inputs
import proofs.«133462_j79267916415284_1_alg».proof.Proof.Word.Keep
import proofs.«133462_j79267916415284_1_alg».proof.Proof.Keep
import proofs.«133462_j79267916415284_1_alg».proof.Proof.Bridge
import proofs.«133462_j79267916415284_1_alg».proof.Proof.RefValue
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_kernel : Cert.frame_Kernel := fun m ρ _ => Cert.Kernel.Run.frame m ρ

/-- So does the idealized kernel program. -/
theorem frame_kernelIdeal : Cert.frame_KernelIdeal := fun m ρ _ => Cert.KernelIdeal.Run.frame m ρ

/-- So does the reference. -/
theorem frame_reference : Cert.frame_ReferenceIdeal := Cert.ReferenceIdeal.RefValue.frame

/-- The idealization is the program's own text read at the ideal instance: nothing to state. -/
theorem preserves : Cert.preserves_Kernel_KernelIdeal := trivial

/-- From memories agreeing on the arguments both programs run, and their results — the decoder's array and the latent
    array — are equal entry by entry: both are the shared stages around `(x * column) @ w` and the decoder
    `1 / (1 + exp (-(z @ zᵀ)))` of the same arguments. -/
theorem algebraic : Cert.algebraic_KernelIdeal_ReferenceIdeal := by
  intro m ρ m' ρ' _ hagree
  refine ⟨fun c => Cert.KernelIdeal.Run.V9 m c Cert.KernelIdeal.main_v69, fun c => Cert.KernelIdeal.Run.V9 m c Cert.KernelIdeal.main_v68,
    Cert.KernelIdeal.Run.run_results m ρ, ?_⟩
  refine (θ_run Cert.ReferenceIdeal.defs _ _).mono (fun r h c => ?_) (Cert.ReferenceIdeal.Value.run (F := Ideal) m' ρ')
  obtain ⟨h86, h78, hargs⟩ := h c
  have hz : Cert.ReferenceIdeal.Value.res_main_v78 (F := Ideal) m' c = Cert.KernelIdeal.Run.V9 m c Cert.KernelIdeal.main_v68 := by
    obtain ⟨a0, a1, a2, a3, a4, a5, a6, a7, a8, a9⟩ := hagree c
    rw [Cert.ReferenceIdeal.RefValue.res_latent_eq, Cert.KernelIdeal.Bridge.result_latent]
    unfold Cert.ReferenceIdeal.RefValue.hiddenRef
    rw [a0, a1, a2, a3, a4, a5, a6, a7, a8, a9]
  refine ⟨h86.trans ?_, h78.trans hz, hargs⟩
  rw [Cert.ReferenceIdeal.RefValue.res_adj_eq, hz]
  exact (Cert.KernelIdeal.Bridge.result_adj m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
